-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512 : Shape := ⟨2, ![4096, 512]⟩
abbrev S32x4096 : Shape := ⟨2, ![32, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x512 32) (main_arg2 : FVec F S32x4096 .f32) (main_arg3 : IVec S32x4096 32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x512 : Shape := ⟨2, ![4096, 512]⟩
abbrev S32x4096 : Shape := ⟨2, ![32, 4096]⟩
abbrev S4096 : Shape := ⟨1, ![4096]⟩
abbrev S8192x4096 : Shape := ⟨2, ![8192, 4096]⟩
abbrev S8 : Shape := ⟨1, ![8]⟩
abbrev S_ : Shape := ⟨0, ![]⟩
abbrev S4096x512x1 : Shape := ⟨3, ![4096, 512, 1]⟩
abbrev S1x1x8 : Shape := ⟨3, ![1, 1, 8]⟩
abbrev S4096x512x8 : Shape := ⟨3, ![4096, 512, 8]⟩
abbrev S4096x4096 : Shape := ⟨2, ![4096, 4096]⟩
abbrev S4096x1 : Shape := ⟨2, ![4096, 1]⟩
abbrev S1x4096 : Shape := ⟨2, ![1, 4096]⟩
abbrev S1024x1024 : Shape := ⟨2, ![1024, 1024]⟩
abbrev S2048x1024 : Shape := ⟨2, ![2048, 1024]⟩
abbrev S1x2048 : Shape := ⟨2, ![1, 2048]⟩
abbrev S1024x2048 : Shape := ⟨2, ![1024, 2048]⟩

abbrev nBuf : Space → Nat
  | .hbm => 69
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .i32⟩
  | .hbm, ⟨2, _⟩ => ⟨S32x4096, .f32⟩
  | .hbm, ⟨3, _⟩ => ⟨S32x4096, .i32⟩
  | .hbm, ⟨4, _⟩ => ⟨S4096, .f32⟩
  | .hbm, ⟨5, _⟩ => ⟨S8192x4096, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S4096x512x1, .i32⟩
  | .hbm, ⟨14, _⟩ => ⟨S1x1x8, .i32⟩
  | .hbm, ⟨15, _⟩ => ⟨S4096x512x8, .i32⟩
  | .hbm, ⟨16, _⟩ => ⟨S4096x512x8, .i32⟩
  | .hbm, ⟨17, _⟩ => ⟨S4096x512x8, .i32⟩
  | .hbm, ⟨18, _⟩ => ⟨S_, .i32⟩
  | .hbm, ⟨19, _⟩ => ⟨S4096x512x8, .i32⟩
  | .hbm, ⟨20, _⟩ => ⟨S4096x512x8, .i32⟩
  | .hbm, ⟨21, _⟩ => ⟨S4096x4096, .i32⟩
  | .hbm, ⟨22, _⟩ => ⟨S4096x4096, .f32⟩
  | .hbm, ⟨23, _⟩ => ⟨S4096, .i32⟩
  | .hbm, ⟨24, _⟩ => ⟨S_, .i32⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S32x4096, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096x4096, .f32⟩
  | .hbm, ⟨52, _⟩ => ⟨S4096x4096, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .bf16⟩
  | .hbm, ⟨66, _⟩ => ⟨S1x4096, .f32⟩
  | .hbm, ⟨67, _⟩ => ⟨S8192x4096, .f32⟩
  | .hbm, ⟨68, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_c : Ref sig .tc := ⟨.hbm, 7, rfl⟩
abbrev main_call0_v2 : Ref sig .tc := ⟨.hbm, 8, rfl⟩
abbrev main_call0_v3 : Ref sig .tc := ⟨.hbm, 9, rfl⟩
abbrev main_call0_c_0 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_1 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_c_2 : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_c : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_call0_c_0 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_v16 : Ref sig .tc := ⟨.hbm, 41, rfl⟩
abbrev main_call0_v17 : Ref sig .tc := ⟨.hbm, 42, rfl⟩
abbrev main_call0_c_3 : Ref sig .tc := ⟨.hbm, 43, rfl⟩
abbrev main_call0_v18 : Ref sig .tc := ⟨.hbm, 44, rfl⟩
abbrev main_call0_v19 : Ref sig .tc := ⟨.hbm, 45, rfl⟩
abbrev main_call0_c_4 : Ref sig .tc := ⟨.hbm, 46, rfl⟩
abbrev main_call0_v20 : Ref sig .tc := ⟨.hbm, 47, rfl⟩
abbrev main_call0_v21 : Ref sig .tc := ⟨.hbm, 48, rfl⟩
abbrev main_call0_v22 : Ref sig .tc := ⟨.hbm, 49, rfl⟩
abbrev main_call0_v23 : Ref sig .tc := ⟨.hbm, 50, rfl⟩
abbrev main_call0_v24 : Ref sig .tc := ⟨.hbm, 51, rfl⟩
abbrev main_call0_v25 : Ref sig .tc := ⟨.hbm, 52, rfl⟩
abbrev main_call0_c_5 : Ref sig .tc := ⟨.hbm, 53, rfl⟩
abbrev main_call0_v26 : Ref sig .tc := ⟨.hbm, 54, rfl⟩
abbrev main_call0_v27 : Ref sig .tc := ⟨.hbm, 55, rfl⟩
abbrev main_call0_c_6 : Ref sig .tc := ⟨.hbm, 56, rfl⟩
abbrev main_call0_v28 : Ref sig .tc := ⟨.hbm, 57, rfl⟩
abbrev main_call0_v29 : Ref sig .tc := ⟨.hbm, 58, rfl⟩
abbrev main_call0_v30 : Ref sig .tc := ⟨.hbm, 59, rfl⟩
abbrev main_call0_v31 : Ref sig .tc := ⟨.hbm, 60, rfl⟩
abbrev main_call0_v32 : Ref sig .tc := ⟨.hbm, 61, rfl⟩
abbrev main_call0_v33 : Ref sig .tc := ⟨.hbm, 62, rfl⟩
abbrev main_call0_v34 : Ref sig .tc := ⟨.hbm, 63, rfl⟩
abbrev main_call0_v35 : Ref sig .tc := ⟨.hbm, 64, rfl⟩
abbrev main_call0_v36 : Ref sig .tc := ⟨.hbm, 65, rfl⟩
abbrev main_call0_v37 : Ref sig .tc := ⟨.hbm, 66, rfl⟩
abbrev main_call0_v38 : Ref sig .tc := ⟨.hbm, 67, rfl⟩
abbrev main_v0 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bcast_S_S8 : S_.BroadcastsInDim S8 (![] : Fin 0 → Fin S8.rank)
  bcast_S4096x512_S4096x512x1_0_1 : S4096x512.BroadcastsInDim S4096x512x1 (![0, 1] : Fin 2 → Fin S4096x512x1.rank)
  bcast_S8_S1x1x8_2 : S8.BroadcastsInDim S1x1x8 (![2] : Fin 1 → Fin S1x1x8.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  transposes_S4096x4096_S4096x4096_1_0 : S4096x4096.Transposes [1, 0] S4096x4096
  bitsLt_bf16_f32 : FTy.bits .bf16 < FTy.bits .f32
  shapeCasts_S4096_S1x4096 : S4096.ShapeCasts S1x4096
  shapeCasts_S8192x4096_S4x2048x4096 : S8192x4096.ShapeCasts S4x2048x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  gather_S32x4096_S4096x1_S4096x4096_1_0_n_n_0_1_14096_wf : GatherDims.WF S32x4096 S4096x1 S4096x4096 [1] [0] [] [0] [] 1 ![1, 4096]
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x4096.size a
  hwx0_3 : ∀ i : grid0.Coords, EltTy.bits .f32 = 32 ∨ (Rect.block (s := S8192x4096) S1024x2048.size (cc0_transform_3 i) (hinb0_3 i)).WholeWords (EltTy.packing .f32)

variable [Facts₀]

def gather_S32x4096_S4096x1_S4096x4096_1_0_n_n_0_1_14096 : GatherDims S32x4096 S4096x1 S4096x4096 where
  offsetDims := [1]
  collapsedSliceDims := [0]
  operandBatchingDims := []
  startIndicesBatchingDims := []
  startIndexMap := [0]
  indexVectorDim := 1
  sliceSizes := ![1, 4096]
  wf := gather_S32x4096_S4096x1_S4096x4096_1_0_n_n_0_1_14096_wf
def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_call0_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v36) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v37) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v38) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x512 : Shape := ⟨2, ![4096, 512]⟩
abbrev S32x4096 : Shape := ⟨2, ![32, 4096]⟩
abbrev S4096 : Shape := ⟨1, ![4096]⟩
abbrev S8 : Shape := ⟨1, ![8]⟩
abbrev S_ : Shape := ⟨0, ![]⟩
abbrev S4096x512x1 : Shape := ⟨3, ![4096, 512, 1]⟩
abbrev S1x1x8 : Shape := ⟨3, ![1, 1, 8]⟩
abbrev S4096x512x8 : Shape := ⟨3, ![4096, 512, 8]⟩
abbrev S4096x4096 : Shape := ⟨2, ![4096, 4096]⟩
abbrev S4096x1 : Shape := ⟨2, ![4096, 1]⟩
abbrev S1x1x4096 : Shape := ⟨3, ![1, 1, 4096]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512, .i32⟩
  | .hbm, ⟨2, _⟩ => ⟨S32x4096, .f32⟩
  | .hbm, ⟨3, _⟩ => ⟨S32x4096, .i32⟩
  | .hbm, ⟨4, _⟩ => ⟨S4096, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S4096x512x1, .i32⟩
  | .hbm, ⟨13, _⟩ => ⟨S1x1x8, .i32⟩
  | .hbm, ⟨14, _⟩ => ⟨S4096x512x8, .i32⟩
  | .hbm, ⟨15, _⟩ => ⟨S4096x512x8, .i32⟩
  | .hbm, ⟨16, _⟩ => ⟨S4096x512x8, .i32⟩
  | .hbm, ⟨17, _⟩ => ⟨S_, .i32⟩
  | .hbm, ⟨18, _⟩ => ⟨S4096x512x8, .i32⟩
  | .hbm, ⟨19, _⟩ => ⟨S4096x512x8, .i32⟩
  | .hbm, ⟨20, _⟩ => ⟨S4096x4096, .i32⟩
  | .hbm, ⟨21, _⟩ => ⟨S4096x4096, .f32⟩
  | .hbm, ⟨22, _⟩ => ⟨S4096, .i32⟩
  | .hbm, ⟨23, _⟩ => ⟨S_, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S32x4096, .f32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S4096x1, .i32⟩
  | .hbm, ⟨50, _⟩ => ⟨S4096x4096, .f32⟩
  | .hbm, ⟨51, _⟩ => ⟨S4096x4096, .f32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4x2048x4096, .f32⟩
  | .hbm, ⟨65, _⟩ => ⟨S1x1x4096, .f32⟩
  | .hbm, ⟨66, _⟩ => ⟨S4x2048x4096, .f32⟩
  | .hbm, ⟨67, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x512_S4096x512x1_0_1 : S4096x512.BroadcastsInDim S4096x512x1 (![0, 1] : Fin 2 → Fin S4096x512x1.rank)
  bcast_S8_S1x1x8_2 : S8.BroadcastsInDim S1x1x8 (![2] : Fin 1 → Fin S1x1x8.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  transposes_S4096x4096_S4096x4096_1_0 : S4096x4096.Transposes [1, 0] S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S32x4096_S4096x1_S4096x4096_1_0_n_n_0_1_14096_wf : GatherDims.WF S32x4096 S4096x1 S4096x4096 [1] [0] [] [0] [] 1 ![1, 4096]
  dot_S4x2048x4096_S4096x4096_S4x2048x4096_2_1_01_0_n_n_wf : DotDims.WF S4x2048x4096 S4096x4096 S4x2048x4096 [2] [1] [0, 1] [0] [] []

variable [Facts₀]

def gather_S32x4096_S4096x1_S4096x4096_1_0_n_n_0_1_14096 : GatherDims S32x4096 S4096x1 S4096x4096 where
  offsetDims := [1]
  collapsedSliceDims := [0]
  operandBatchingDims := []
  startIndicesBatchingDims := []
  startIndexMap := [0]
  indexVectorDim := 1
  sliceSizes := ![1, 4096]
  wf := gather_S32x4096_S4096x1_S4096x4096_1_0_n_n_0_1_14096_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.TiledRun.lean ====
/-
  The tiled matmul's frame run.  The grid is 8 x 2 x 4: a point (i, j, k) multiplies the 1024 x 1024 block (i, k) of the
  activations by the transposed 2048 x 1024 block (j, k) of the weights.  The output block (i, j) stays in its staging
  buffer across the four steps k = 0..3 of the contracted axis: at k = 0 the body stores the partial product plus the
  bias row, at k > 0 it adds the partial product to what the step before left; the block is written back after k = 3.
  So what the output buffer holds after point t is a recursion on t (`blockAcc`): the first case where t % 4 = 0, the
  second elsewhere.  Everything here is stated at an arbitrary float instance.
-/
import proofs.«400176_j33337536152070_3_alg».proof.Proof.Gen.KernelIdeal.Frame
import proofs.«400176_j33337536152070_3_alg».proof.Proof.Gen.KernelIdeal.Skeleton
import Idealize.ShloMosaic.Lib.Pipeline.Value

set_option maxRecDepth 16384

noncomputable section

namespace Cert.KernelIdeal.Tiled

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-block accesses -/

/-- One store through the whole-block rectangle, read back, is the stored value, whatever the buffer held. -/
theorem read_after_whole_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- A load through the whole-block rectangle of a whole buffer holding `X` reads `X`. -/
theorem load_whole {sg : RefSig} {κ : Kind} {sp : Space} {S : Shape} {e : EltTy} (a : Memref sg κ sp S e) (ha : a.IsWhole)
    {off : Fin S.rank → Nat} (h : off = fun _ => 0) (inb : ∀ a, off a + S.size a ≤ S.size a) (X : S.Idx → Elt F e) :
    a.view.readAt (Elt F) (Rect.unit off S.size inb).toLoadRect (ha.unread X) = X := by
  rw [View.readAt_eq_ld, ha.read_unread, View.ld_unit_zero h]

/-! ## The two steps of the reduction, decided over the grid -/

/-- The body's first branch (k = 0) is taken exactly at the points t with t % 4 = 0, -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)
/-- and its second (k > 0) exactly at the others. -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- One of the two branches stores into the output block at every coordinate triple: k = 0 or k > 0. -/
theorem out_live : ∀ i : grid0.Coords, cfg0.idle 3 i = false := by
  intro i
  have hk : (i 2).val < 4 := (i 2).isLt
  show (!(k0_cond1 i == 1#1) && !(k0_cond2 i == 1#1)) = false
  unfold k0_cond1 k0_cond2
  generalize (i 2).val = k at hk ⊢
  have h4 : k = 0 ∨ k = 1 ∨ k = 2 ∨ k = 3 := by omega
  rcases h4 with rfl | rfl | rfl | rfl <;> decide

/-! ## The body's run in each step -/

set_option maxHeartbeats 1000000 in
/-- At a first step the body leaves the output buffer at the partial product plus the broadcast bias row (the
    skeleton's `k0_pay2` of the three input blocks), whatever the buffer held, and the inputs as they were. -/
theorem body_first (c : Dev nD) (i : grid0.Coords)
    (arg3 : Memref sig .tc .vmem S1024x1024 .f32) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S1024x2048 .f32) (harg6 : arg6.IsWhole)
    (hc1 : k0_cond1 i = 1#1) (hc2 : ¬ k0_cond2 i = 1#1)
    (x0 : Vec F S1024x1024 .f32) (w0 : Vec F S2048x1024 .bf16) (b0 : Vec F S1x2048 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ (∃ d, owns (c : Thread nD τ) arg6 fullShare d)
        ∗ (iprop(owns (c : Thread nD τ) arg3 fullShare x0 ∗ owns (c : Thread nD τ) arg4 fullShare w0 ∗ owns (c : Thread nD τ) arg5 fullShare b0
            ∗ owns (c : Thread nD τ) arg6 fullShare (k0_pay2 x0 w0 b0)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  obtain rfl := harg3.eq_unread hf0; obtain rfl := harg4.eq_unread hf1; obtain rfl := harg5.eq_unread hf2
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact H3
  ipureintro
  rw [read_after_whole_store _ _ (funext fun a => by match a with | ⟨0, _⟩ => rfl | ⟨1, _⟩ => rfl),
    load_whole arg3 harg3 (funext fun a => by match a with | ⟨0, _⟩ => rfl | ⟨1, _⟩ => rfl),
    load_whole arg4 harg4 (funext fun a => by match a with | ⟨0, _⟩ => rfl | ⟨1, _⟩ => rfl),
    load_whole arg5 harg5 (funext fun a => by match a with | ⟨0, _⟩ => rfl | ⟨1, _⟩ => rfl)]

set_option maxHeartbeats 1000000 in
/-- At a later step the body leaves the output buffer at what it held plus the partial product (the skeleton's
    `k0_pay3` of the two matrix blocks and the buffer's contents); the bias block is not read. -/
theorem body_later (c : Dev nD) (i : grid0.Coords)
    (arg3 : Memref sig .tc .vmem S1024x1024 .f32) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S1024x2048 .f32) (harg6 : arg6.IsWhole)
    (hc1 : ¬ k0_cond1 i = 1#1) (hc2 : k0_cond2 i = 1#1)
    (x0 : Vec F S1024x1024 .f32) (w0 : Vec F S2048x1024 .bf16) (b0 : Vec F S1x2048 .f32) (a0 : Vec F S1024x2048 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare a0
        ∗ (iprop(owns (c : Thread nD τ) arg3 fullShare x0 ∗ owns (c : Thread nD τ) arg4 fullShare w0 ∗ owns (c : Thread nD τ) arg5 fullShare b0
            ∗ owns (c : Thread nD τ) arg6 fullShare (k0_pay3 x0 w0 a0)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, H2, ⟨%f3, %hf3, H3⟩, Hk⟩
  obtain rfl := harg3.eq_unread hf0; obtain rfl := harg4.eq_unread hf1; obtain rfl := harg6.eq_unread hf3
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]; · iexact H2
  iexists _; isplitr
  swap; · iexact H3
  ipureintro
  rw [read_after_whole_store _ _ (funext fun a => by match a with | ⟨0, _⟩ => rfl | ⟨1, _⟩ => rfl),
    load_whole arg3 harg3 (funext fun a => by match a with | ⟨0, _⟩ => rfl | ⟨1, _⟩ => rfl),
    load_whole arg4 harg4 (funext fun a => by match a with | ⟨0, _⟩ => rfl | ⟨1, _⟩ => rfl),
    load_whole arg6 harg6 (funext fun a => by match a with | ⟨0, _⟩ => rfl | ⟨1, _⟩ => rfl)]

/-! ## What the output block's staging buffer holds after each point -/

/-- The running contents of the output block after the body at position `n` of the grid: at a first step
    (n % 4 = 0) the partial product of the point's blocks plus the bias row; at a later step what position `n - 1`
    left (the same output block: the buffer is not written back in between) plus the point's partial product. -/
def blockAcc (c : Dev nD) : (n : ℕ) → n < cfg0.N → Vec F S1024x2048 .f32
  | 0, hn => k0_pay2 (iblk m c 0 ⟨0, hn⟩) (iblk m c 1 ⟨0, hn⟩) (iblk m c 2 ⟨0, hn⟩)
  | n + 1, hn =>
    if (n + 1) % 4 = 0 then
      k0_pay2 (iblk m c 0 ⟨n + 1, hn⟩) (iblk m c 1 ⟨n + 1, hn⟩) (iblk m c 2 ⟨n + 1, hn⟩)
    else
      k0_pay3 (iblk m c 0 ⟨n + 1, hn⟩) (iblk m c 1 ⟨n + 1, hn⟩) (blockAcc c n (Nat.lt_of_succ_lt hn))

/-- `blockAcc` at a first step. -/
theorem blockAcc_first (c : Dev nD) (t : Fin cfg0.N) (h0 : t.val % 4 = 0) :
    blockAcc m c t.val t.isLt = k0_pay2 (iblk m c 0 t) (iblk m c 1 t) (iblk m c 2 t) := by
  obtain ⟨n, hn⟩ := t
  cases n with
  | zero => rfl
  | succ n => exact (if_pos h0).trans rfl

/-- `blockAcc` at a later step. -/
theorem blockAcc_later (c : Dev nD) (t : Fin cfg0.N) (h0 : ¬ t.val % 4 = 0) :
    blockAcc m c t.val t.isLt = k0_pay3 (iblk m c 0 t) (iblk m c 1 t)
      (blockAcc m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- On core `c`: the arrays as the region finds them; after the body each input buffer still at its block and the
    output buffer at `blockAcc`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockAcc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) : (dats m 0 c).after 3 t = blockAcc m c t.val t.isLt := by dsimp only [dats]

/-- Each input buffer holds its block when the body runs, fetched at this point or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d

/-- At a later step the output buffer holds what the step before left: the point is not the grid's first, and the
    block is written back only after a step with t % 4 = 3, which the step before a later one is not. -/
theorem before_o_later (c : Dev nD) (t : Fin cfg0.N) (h0 : ¬ t.val % 4 = 0) (d) :
    (dats m 0 c).before 3 t d = blockAcc m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    out_live (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1000000 in
/-- The body at any point: the inputs' buffers hold their blocks; by the point's position in its group of four it is a
    first step or a later one, and at a later one the output buffer holds what the step before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 3 t = owns (c : Thread nD τ) (st0_3 t) fullShare ((dats m 0 c).after 3 t) from by
      unfold Dat.leavesExact; rw [out_live],
    after_x, after_w, after_b, after_o]
  by_cases h0 : t.val % 4 = 0
  · rw [blockAcc_first m c t h0]
    iintro ⟨HΦ, Ho, ⟨%d0, H0⟩, ⟨%d1, H1⟩, ⟨%d2, H2⟩, ⟨%d3, H3⟩⟩
    iapply (body_first c (grid0.coords t) _ _ _ _ _ _ _ _ ((first_iff t).mpr h0) (fun h => (later_iff t).mp h h0)
      (iblk m c 0 t) (iblk m c 1 t) (iblk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [blockAcc_later m c t h0]
    simp only [before_o_later m c t h0]
    iintro ⟨HΦ, Ho, ⟨%d0, H0⟩, ⟨%d1, H1⟩, ⟨%d2, H2⟩, ⟨%d3, H3⟩⟩
    iapply (body_later c (grid0.coords t) _ _ _ _ _ _ _ _ (fun h => h0 ((first_iff t).mp h)) ((later_iff t).mpr h0)
      (iblk m c 0 t) (iblk m c 1 t) (iblk m c 2 t) _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; the pipeline's arrays end at what the proof data
    say (the output array its blocks as written back), every other unscoped buffer as the host lines after the region
    leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its five argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Tiled

end
-- ==== Proof.TiledRunBits.lean ====
/-
  The tiled matmul's frame run.  The grid is 8 x 2 x 4: a point (i, j, k) multiplies the 1024 x 1024 block (i, k) of the
  activations by the transposed 2048 x 1024 block (j, k) of the weights.  The output block (i, j) stays in its staging
  buffer across the four steps k = 0..3 of the contracted axis: at k = 0 the body stores the partial product plus the
  bias row, at k > 0 it adds the partial product to what the step before left; the block is written back after k = 3.
  So what the output buffer holds after point t is a recursion on t (`blockAcc`): the first case where t % 4 = 0, the
  second elsewhere.  Everything here is stated at an arbitrary float instance.
-/
import proofs.«400176_j33337536152070_3_alg».proof.Proof.Gen.Kernel.Frame
import proofs.«400176_j33337536152070_3_alg».proof.Proof.Gen.Kernel.Skeleton
import Idealize.ShloMosaic.Lib.Pipeline.Value

set_option maxRecDepth 16384

noncomputable section

namespace Cert.Kernel.Tiled

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-block accesses -/

/-- One store through the whole-block rectangle, read back, is the stored value, whatever the buffer held. -/
theorem read_after_whole_store {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  subst h
  rw [View.read_writes_eq_canon _ _ _ (fun y => ⟨_, List.mem_singleton_self _, by
    show y ∈ (Rect.whole S).set; rw [Rect.set_whole]; exact Finset.mem_univ y⟩), View.canon_unit_zero rfl]

/-- A load through the whole-block rectangle of a whole buffer holding `X` reads `X`. -/
theorem load_whole {sg : RefSig} {κ : Kind} {sp : Space} {S : Shape} {e : EltTy} (a : Memref sg κ sp S e) (ha : a.IsWhole)
    {off : Fin S.rank → Nat} (h : off = fun _ => 0) (inb : ∀ a, off a + S.size a ≤ S.size a) (X : S.Idx → Elt F e) :
    a.view.readAt (Elt F) (Rect.unit off S.size inb).toLoadRect (ha.unread X) = X := by
  rw [View.readAt_eq_ld, ha.read_unread, View.ld_unit_zero h]

/-! ## The two steps of the reduction, decided over the grid -/

/-- The body's first branch (k = 0) is taken exactly at the points t with t % 4 = 0, -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)
/-- and its second (k > 0) exactly at the others. -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- One of the two branches stores into the output block at every coordinate triple: k = 0 or k > 0. -/
theorem out_live : ∀ i : grid0.Coords, cfg0.idle 3 i = false := by
  intro i
  have hk : (i 2).val < 4 := (i 2).isLt
  show (!(k0_cond1 i == 1#1) && !(k0_cond2 i == 1#1)) = false
  unfold k0_cond1 k0_cond2
  generalize (i 2).val = k at hk ⊢
  have h4 : k = 0 ∨ k = 1 ∨ k = 2 ∨ k = 3 := by omega
  rcases h4 with rfl | rfl | rfl | rfl <;> decide

/-! ## The body's run in each step -/

set_option maxHeartbeats 1000000 in
/-- At a first step the body leaves the output buffer at the partial product plus the broadcast bias row (the
    skeleton's `k0_pay2` of the three input blocks), whatever the buffer held, and the inputs as they were. -/
theorem body_first (c : Dev nD) (i : grid0.Coords)
    (arg3 : Memref sig .tc .vmem S1024x1024 .f32) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S1024x2048 .f32) (harg6 : arg6.IsWhole)
    (hc1 : k0_cond1 i = 1#1) (hc2 : ¬ k0_cond2 i = 1#1)
    (x0 : Vec F S1024x1024 .f32) (w0 : Vec F S2048x1024 .bf16) (b0 : Vec F S1x2048 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ (∃ d, owns (c : Thread nD τ) arg6 fullShare d)
        ∗ (iprop(owns (c : Thread nD τ) arg3 fullShare x0 ∗ owns (c : Thread nD τ) arg4 fullShare w0 ∗ owns (c : Thread nD τ) arg5 fullShare b0
            ∗ owns (c : Thread nD τ) arg6 fullShare (k0_pay2 x0 w0 b0)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  obtain rfl := harg3.eq_unread hf0; obtain rfl := harg4.eq_unread hf1; obtain rfl := harg5.eq_unread hf2
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact H3
  ipureintro
  rw [read_after_whole_store _ _ (funext fun a => by match a with | ⟨0, _⟩ => rfl | ⟨1, _⟩ => rfl),
    load_whole arg3 harg3 (funext fun a => by match a with | ⟨0, _⟩ => rfl | ⟨1, _⟩ => rfl),
    load_whole arg4 harg4 (funext fun a => by match a with | ⟨0, _⟩ => rfl | ⟨1, _⟩ => rfl),
    load_whole arg5 harg5 (funext fun a => by match a with | ⟨0, _⟩ => rfl | ⟨1, _⟩ => rfl)]

set_option maxHeartbeats 1000000 in
/-- At a later step the body leaves the output buffer at what it held plus the partial product (the skeleton's
    `k0_pay3` of the two matrix blocks and the buffer's contents); the bias block is not read. -/
theorem body_later (c : Dev nD) (i : grid0.Coords)
    (arg3 : Memref sig .tc .vmem S1024x1024 .f32) (harg3 : arg3.IsWhole) (arg4 : Memref sig .tc .vmem S2048x1024 .bf16) (harg4 : arg4.IsWhole)
    (arg5 : Memref sig .tc .vmem S1x2048 .f32) (harg5 : arg5.IsWhole) (arg6 : Memref sig .tc .vmem S1024x2048 .f32) (harg6 : arg6.IsWhole)
    (hc1 : ¬ k0_cond1 i = 1#1) (hc2 : k0_cond2 i = 1#1)
    (x0 : Vec F S1024x1024 .f32) (w0 : Vec F S2048x1024 .bf16) (b0 : Vec F S1x2048 .f32) (a0 : Vec F S1024x2048 .f32)
    (E : Set ℕ) (K : PUnit → sProp 𝕄) :
    iprop(owns (c : Thread nD τ) arg3 fullShare x0 ∗ owns (c : Thread nD τ) arg4 fullShare w0 ∗ owns (c : Thread nD τ) arg5 fullShare b0
        ∗ owns (c : Thread nD τ) arg6 fullShare a0
        ∗ (iprop(owns (c : Thread nD τ) arg3 fullShare x0 ∗ owns (c : Thread nD τ) arg4 fullShare w0 ∗ owns (c : Thread nD τ) arg5 fullShare b0
            ∗ owns (c : Thread nD τ) arg6 fullShare (k0_pay3 x0 w0 a0)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, H2, ⟨%f3, %hf3, H3⟩, Hk⟩
  obtain rfl := harg3.eq_unread hf0; obtain rfl := harg4.eq_unread hf1; obtain rfl := harg6.eq_unread hf3
  sl_exec (disch := first | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]; · iexact H2
  iexists _; isplitr
  swap; · iexact H3
  ipureintro
  rw [read_after_whole_store _ _ (funext fun a => by match a with | ⟨0, _⟩ => rfl | ⟨1, _⟩ => rfl),
    load_whole arg3 harg3 (funext fun a => by match a with | ⟨0, _⟩ => rfl | ⟨1, _⟩ => rfl),
    load_whole arg4 harg4 (funext fun a => by match a with | ⟨0, _⟩ => rfl | ⟨1, _⟩ => rfl),
    load_whole arg6 harg6 (funext fun a => by match a with | ⟨0, _⟩ => rfl | ⟨1, _⟩ => rfl)]

/-! ## What the output block's staging buffer holds after each point -/

/-- The running contents of the output block after the body at position `n` of the grid: at a first step
    (n % 4 = 0) the partial product of the point's blocks plus the bias row; at a later step what position `n - 1`
    left (the same output block: the buffer is not written back in between) plus the point's partial product. -/
def blockAcc (c : Dev nD) : (n : ℕ) → n < cfg0.N → Vec F S1024x2048 .f32
  | 0, hn => k0_pay2 (iblk m c 0 ⟨0, hn⟩) (iblk m c 1 ⟨0, hn⟩) (iblk m c 2 ⟨0, hn⟩)
  | n + 1, hn =>
    if (n + 1) % 4 = 0 then
      k0_pay2 (iblk m c 0 ⟨n + 1, hn⟩) (iblk m c 1 ⟨n + 1, hn⟩) (iblk m c 2 ⟨n + 1, hn⟩)
    else
      k0_pay3 (iblk m c 0 ⟨n + 1, hn⟩) (iblk m c 1 ⟨n + 1, hn⟩) (blockAcc c n (Nat.lt_of_succ_lt hn))

/-- `blockAcc` at a first step. -/
theorem blockAcc_first (c : Dev nD) (t : Fin cfg0.N) (h0 : t.val % 4 = 0) :
    blockAcc m c t.val t.isLt = k0_pay2 (iblk m c 0 t) (iblk m c 1 t) (iblk m c 2 t) := by
  obtain ⟨n, hn⟩ := t
  cases n with
  | zero => rfl
  | succ n => exact (if_pos h0).trans rfl

/-- `blockAcc` at a later step. -/
theorem blockAcc_later (c : Dev nD) (t : Fin cfg0.N) (h0 : ¬ t.val % 4 = 0) :
    blockAcc m c t.val t.isLt = k0_pay3 (iblk m c 0 t) (iblk m c 1 t)
      (blockAcc m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The pipeline's proof data -/

/-- On core `c`: the arrays as the region finds them; after the body each input buffer still at its block and the
    output buffer at `blockAcc`; the invariant the scoped rest and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockAcc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_o (c : Dev nD) (t : Fin cfg0.N) : (dats m 0 c).after 3 t = blockAcc m c t.val t.isLt := by dsimp only [dats]

/-- Each input buffer holds its block when the body runs, fetched at this point or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_b (c : Dev nD) (t : Fin cfg0.N) (d) : (dats m 0 c).before 2 t d = iblk m c 2 t :=
  before0_2_of m (dats m 0 c) (A_eq m c 2) (after_b m c) t d

/-- At a later step the output buffer holds what the step before left: the point is not the grid's first, and the
    block is written back only after a step with t % 4 = 3, which the step before a later one is not. -/
theorem before_o_later (c : Dev nD) (t : Fin cfg0.N) (h0 : ¬ t.val % 4 = 0) (d) :
    (dats m 0 c).before 3 t d = blockAcc m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    out_live (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1000000 in
/-- The body at any point: the inputs' buffers hold their blocks; by the point's position in its group of four it is a
    first step or a later one, and at a later one the output buffer holds what the step before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w, before_b]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (st0_0 t) fullShare ((dats m 0 c).after 0 t) from rfl,
    show (dats m 0 c).leavesExact 1 t = owns (c : Thread nD τ) (st0_1 t) fullShare ((dats m 0 c).after 1 t) from rfl,
    show (dats m 0 c).leavesExact 2 t = owns (c : Thread nD τ) (st0_2 t) fullShare ((dats m 0 c).after 2 t) from rfl,
    show (dats m 0 c).leavesExact 3 t = owns (c : Thread nD τ) (st0_3 t) fullShare ((dats m 0 c).after 3 t) from by
      unfold Dat.leavesExact; rw [out_live],
    after_x, after_w, after_b, after_o]
  by_cases h0 : t.val % 4 = 0
  · rw [blockAcc_first m c t h0]
    iintro ⟨HΦ, Ho, ⟨%d0, H0⟩, ⟨%d1, H1⟩, ⟨%d2, H2⟩, ⟨%d3, H3⟩⟩
    iapply (body_first c (grid0.coords t) _ _ _ _ _ _ _ _ ((first_iff t).mpr h0) (fun h => (later_iff t).mp h h0)
      (iblk m c 0 t) (iblk m c 1 t) (iblk m c 2 t) Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [blockAcc_later m c t h0]
    simp only [before_o_later m c t h0]
    iintro ⟨HΦ, Ho, ⟨%d0, H0⟩, ⟨%d1, H1⟩, ⟨%d2, H2⟩, ⟨%d3, H3⟩⟩
    iapply (body_later c (grid0.coords t) _ _ _ _ _ _ _ _ (fun h => h0 ((first_iff t).mp h)) ((later_iff t).mpr h0)
      (iblk m c 0 t) (iblk m c 1 t) (iblk m c 2 t) _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; the pipeline's arrays end at what the proof data
    say (the output array its blocks as written back), every other unscoped buffer as the host lines after the region
    leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its five argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Tiled

end
-- ==== Proof.TileValue.lean ====
/-
  The body's arithmetic at one index of the output block, at the exact-real instance.  With x0 the 1024 x 1024 block of
  activations, w0 the 2048 x 1024 block of weights and b0 the 1 x 2048 block of the bias row, the partial product at
  (p, q) is the sum over the 1024 contracted columns j of x0(p, j) * w0(q, j) (the casts to bf16 are the identity on
  exact reals, and the matrix unit starts from a zero accumulator); a first step adds b0(0, q) to it, a later step
  adds it to what the block held at (p, q).
-/
import proofs.«400176_j33337536152070_3_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Tiled

open Cert.KernelIdeal Cert.KernelIdeal.Gen Idealize.ShloMosaic Idealize.ShloMosaic.ValueIdx

/-! ## The matrix product's operand indices: rows from the output index, the column from the contraction index -/

theorem lhs_row (j : S1024x2048.Idx) (k : dot_S1024x1024_S2048x1024_S1024x2048_1_1_0_0_n_n.contr.Idx) :
    (dot_S1024x1024_S2048x1024_S1024x2048_1_1_0_0_n_n.lhsIdx j k 0).val = (j 0).val := by
  unfold DotDims.lhsIdx
  rw [dif_neg (show ¬(0 : Fin S1024x1024.rank) ∈ dot_S1024x1024_S2048x1024_S1024x2048_1_1_0_0_n_n.lhsBatch by decide),
    dif_pos (show (0 : Fin S1024x1024.rank) ∈ dot_S1024x1024_S2048x1024_S1024x2048_1_1_0_0_n_n.lhsNonContracting by decide)]
  rfl

theorem lhs_col (j : S1024x2048.Idx) (k : dot_S1024x1024_S2048x1024_S1024x2048_1_1_0_0_n_n.contr.Idx) :
    (dot_S1024x1024_S2048x1024_S1024x2048_1_1_0_0_n_n.lhsIdx j k 1).val = (k ⟨0, by decide⟩).val :=
  DotDims.lhsIdx_val_of_single _ rfl j k

theorem rhs_row (j : S1024x2048.Idx) (k : dot_S1024x1024_S2048x1024_S1024x2048_1_1_0_0_n_n.contr.Idx) :
    (dot_S1024x1024_S2048x1024_S1024x2048_1_1_0_0_n_n.rhsIdx j k 0).val = (j 1).val := by
  unfold DotDims.rhsIdx
  rw [dif_neg (show ¬(0 : Fin S2048x1024.rank) ∈ dot_S1024x1024_S2048x1024_S1024x2048_1_1_0_0_n_n.rhsBatch by decide),
    dif_pos (show (0 : Fin S2048x1024.rank) ∈ dot_S1024x1024_S2048x1024_S1024x2048_1_1_0_0_n_n.rhsNonContracting by decide)]
  rfl

theorem rhs_col (j : S1024x2048.Idx) (k : dot_S1024x1024_S2048x1024_S1024x2048_1_1_0_0_n_n.contr.Idx) :
    (dot_S1024x1024_S2048x1024_S1024x2048_1_1_0_0_n_n.rhsIdx j k 1).val = (k ⟨0, by decide⟩).val :=
  DotDims.rhsIdx_val_of_single _ rfl j k

/-! ## The payloads at (p, q) -/

/-- The partial product of the two blocks at (p, q). -/
theorem partial_apply (x0 : FVec Ideal S1024x1024 .f32) (w0 : FVec Ideal S2048x1024 .bf16) (p : Fin 1024) (q : Fin 2048) :
    k0_pay1 (F := Ideal) x0 w0 (ix2 p q) = ∑ j : Fin 1024, x0 (ix2 p j) * w0 (ix2 q j) := by
  unfold k0_pay1
  refine (Ideal.matmul_constant_zero_apply dot_S1024x1024_S2048x1024_S1024x2048_1_1_0_0_n_n none _ _ (ix2 p q)).trans ?_
  rw [← Equiv.sum_comp (contrEquiv1 dot_S1024x1024_S2048x1024_S1024x2048_1_1_0_0_n_n 1024 rfl rfl).symm]
  refine Finset.sum_congr rfl fun j _ => ?_
  have hl : dot_S1024x1024_S2048x1024_S1024x2048_1_1_0_0_n_n.lhsIdx (ix2 p q) ((contrEquiv1 dot_S1024x1024_S2048x1024_S1024x2048_1_1_0_0_n_n 1024 rfl rfl).symm j) = ix2 p j := by
    funext a; apply Fin.ext
    match a with
    | ⟨0, _⟩ => exact lhs_row _ _
    | ⟨1, _⟩ => exact (lhs_col _ _).trans (contrEquiv1_symm_val _ _ _ _ j)
  have hr : dot_S1024x1024_S2048x1024_S1024x2048_1_1_0_0_n_n.rhsIdx (ix2 p q) ((contrEquiv1 dot_S1024x1024_S2048x1024_S1024x2048_1_1_0_0_n_n 1024 rfl rfl).symm j) = ix2 q j := by
    funext a; apply Fin.ext
    match a with
    | ⟨0, _⟩ => exact rhs_row _ _
    | ⟨1, _⟩ => exact (rhs_col _ _).trans (contrEquiv1_symm_val _ _ _ _ j)
  rw [hl, hr, shapeCast_self, shapeCast_self]
  rfl

/-- A first step's store at (p, q): the partial product plus the bias row's entry q. -/
theorem first_apply (x0 : FVec Ideal S1024x1024 .f32) (w0 : FVec Ideal S2048x1024 .bf16) (b0 : FVec Ideal S1x2048 .f32)
    (p : Fin 1024) (q : Fin 2048) :
    k0_pay2 (F := Ideal) x0 w0 b0 (ix2 p q) = (∑ j : Fin 1024, x0 (ix2 p j) * w0 (ix2 q j)) + b0 (ix2 (0 : Fin 1) q) := by
  unfold k0_pay2
  refine (addf_apply _ _ _).trans ?_
  rw [partial_apply, shapeCast_self]
  refine congrArg _ (broadcastTo_apply _ _ _ (ix2 (0 : Fin 1) q) fun a => ?_)
  match a with
  | ⟨0, _⟩ => rfl
  | ⟨1, _⟩ => rfl

/-- A later step's store at (p, q): what the block held there plus the partial product. -/
theorem later_apply (x0 : FVec Ideal S1024x1024 .f32) (w0 : FVec Ideal S2048x1024 .bf16) (a0 : FVec Ideal S1024x2048 .f32)
    (p : Fin 1024) (q : Fin 2048) :
    k0_pay3 (F := Ideal) x0 w0 a0 (ix2 p q) = a0 (ix2 p q) + ∑ j : Fin 1024, x0 (ix2 p j) * w0 (ix2 q j) := by
  unfold k0_pay3
  refine (addf_apply _ _ _).trans ?_
  rw [partial_apply, shapeCast_self]

end Cert.KernelIdeal.Tiled

end
-- ==== Proof.BlockValue.lean ====
/-
  The output array after the run, at the exact-real instance.  Write X [8192, 4096] for the staged activations,
  Wt [4096, 4096] for the staged weights and Bs [1, 4096] for the staged bias row.  Point t = (i, j, k) of the grid
  (i = t / 8, j = t / 4 % 2, k = t % 4) reads the blocks X(i·1024 + p, k·1024 + ·), Wt(j·2048 + q, k·1024 + ·) and
  Bs(0, j·2048 + q).  By induction on the point, the output buffer at (p, q) after point t holds the sum of the first
  (k + 1)·1024 terms X(r, ·)·Wt(o, ·) of row r = i·1024 + p against row o = j·2048 + q, plus Bs(0, o): a first step
  starts the sum with its tile and the bias, a later step appends its tile (addition of extended reals is commutative
  and associative, which is all this uses).  The block is written back at k = 3, when the sum is complete; the blocks
  (i, j) tile the array.
-/
import proofs.«400176_j33337536152070_3_alg».proof.Proof.TiledRun
import proofs.«400176_j33337536152070_3_alg».proof.Proof.TileValue

set_option maxRecDepth 16384

noncomputable section

namespace Cert.KernelIdeal.Tiled

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-! ## The staged arrays and the blocks of a point, at their literal types -/

abbrev actArr (c : Dev nD) : FVec Ideal S8192x4096 .f32 := V m c main_call0_v0
abbrev wgtArr (c : Dev nD) : FVec Ideal S4096x4096 .bf16 := V m c main_call0_v36
abbrev biasArr (c : Dev nD) : FVec Ideal S1x4096 .f32 := V m c main_call0_v37
abbrev actBlk (c : Dev nD) (t : Fin cfg0.N) : FVec Ideal S1024x1024 .f32 := iblk m c 0 t
abbrev wgtBlk (c : Dev nD) (t : Fin cfg0.N) : FVec Ideal S2048x1024 .bf16 := iblk m c 1 t
abbrev biasBlk (c : Dev nD) (t : Fin cfg0.N) : FVec Ideal S1x2048 .f32 := iblk m c 2 t

/-- The printed index maps in closed form, decided over the 64 points. -/
theorem idx_facts : ∀ t : Fin cfg0.N,
    win0_0.index t (0 : Fin 2) = t.val / 8 ∧ win0_0.index t (1 : Fin 2) = t.val % 4
    ∧ win0_1.index t (0 : Fin 2) = t.val / 4 % 2 ∧ win0_1.index t (1 : Fin 2) = t.val % 4
    ∧ win0_2.index t (0 : Fin 2) = 0 ∧ win0_2.index t (1 : Fin 2) = t.val / 4 % 2
    ∧ win0_3.index t (0 : Fin 2) = t.val / 8 ∧ win0_3.index t (1 : Fin 2) = t.val / 4 % 2 :=
  (by decide +kernel : ∀ t : Fin grid0.N, _)

/-- The activation block of point t at (p, j) is X at row i·1024 + p, column k·1024 + j. -/
theorem actBlk_apply (c : Dev nD) (t : Fin cfg0.N) (p j : Fin 1024) (r : Fin 8192) (i : Fin 4096)
    (hr : r.val = t.val / 8 * 1024 + p.val) (hi : i.val = t.val % 4 * 1024 + j.val) :
    actBlk m c t (ix2 p j) = actArr m c (ix2 r i) := by
  obtain ⟨e0, e1, -⟩ := idx_facts t
  show V m c main_call0_v0 (((cfg0.win 0).blk t).view.emb (ix2 p j)) = V m c main_call0_v0 (ix2 r i)
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * j.val = i.val; omega

/-- The weight block of point t at (q, j) is Wt at row j'·2048 + q, column k·1024 + j. -/
theorem wgtBlk_apply (c : Dev nD) (t : Fin cfg0.N) (q : Fin 2048) (j : Fin 1024) (o i : Fin 4096)
    (ho : o.val = t.val / 4 % 2 * 2048 + q.val) (hi : i.val = t.val % 4 * 1024 + j.val) :
    wgtBlk m c t (ix2 q j) = wgtArr m c (ix2 o i) := by
  obtain ⟨-, -, e2, e3, -⟩ := idx_facts t
  show V m c main_call0_v36 (((cfg0.win 1).blk t).view.emb (ix2 q j)) = V m c main_call0_v36 (ix2 o i)
  refine congrArg _ (funext fun a => Fin.ext ?_)
  match a with
  | ⟨0, _⟩ => show win0_1.index t (0 : Fin 2) * 2048 + 1 * q.val = o.val; omega
  | ⟨1, _⟩ => show win0_1.index t (1 : Fin 2) * 1024 + 1 * j.val = i.val; omega

/-- The bias block of point t at (0, q) is Bs at (0, j'·2048 + q). -/
theorem biasBlk_apply (c : Dev nD) (t : Fin cfg0.N) (q : Fin 2048) (o : Fin 4096)
    (ho : o.val = t.val / 4 % 2 * 2048 + q.val) :
    biasBlk m c t (ix2 (0 : Fin 1) q) = biasArr m c (ix2 (0 : Fin 1) o) := by
  obtain ⟨-, -, -, -, e4, e5, -⟩ := idx_facts t
  show V m c main_call0_v37 (((cfg0.win 2).blk t).view.emb (ix2 (0 : Fin 1) q)) = V m c main_call0_v37 (ix2 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * q.val = o.val; omega

/-! ## The partial sums along the contracted axis -/

/-- Term i of row r of the activations against row o of the weights (zero past the contracted extent). -/
def term (c : Dev nD) (r : Fin 8192) (o : Fin 4096) (i : ℕ) : EReal :=
  if h : i < 4096 then actArr m c (ix2 r ⟨i, h⟩) * wgtArr m c (ix2 o ⟨i, h⟩) else 0

/-- The sum over the first k + 1 tiles of 1024 terms is the sum over the first k tiles plus tile k's. -/
theorem sum_tile (f : ℕ → EReal) (k : ℕ) :
    ∑ i ∈ Finset.range ((k + 1) * 1024), f i
      = (∑ i ∈ Finset.range (k * 1024), f i) + ∑ j : Fin 1024, f (k * 1024 + j.val) := by
  rw [show (k + 1) * 1024 = k * 1024 + 1024 by omega, Finset.sum_range_add]
  exact congrArg _ (Finset.sum_range fun x => f (k * 1024 + x))

/-- The tile of point t, as the body's partial product spells it. -/
theorem tile_eq (c : Dev nD) (t : Fin cfg0.N) (p : Fin 1024) (q : Fin 2048) (r : Fin 8192) (o : Fin 4096)
    (hr : r.val = t.val / 8 * 1024 + p.val) (ho : o.val = t.val / 4 % 2 * 2048 + q.val) :
    (∑ j : Fin 1024, actBlk m c t (ix2 p j) * wgtBlk m c t (ix2 q j))
      = ∑ j : Fin 1024, term m c r o (t.val % 4 * 1024 + j.val) := by
  refine Finset.sum_congr rfl fun j _ => ?_
  have hlt : t.val % 4 * 1024 + j.val < 4096 := by have := j.isLt; omega
  have e : term m c r o (t.val % 4 * 1024 + j.val)
      = actArr m c (ix2 r ⟨t.val % 4 * 1024 + j.val, hlt⟩) * wgtArr m c (ix2 o ⟨t.val % 4 * 1024 + j.val, hlt⟩) := dif_pos hlt
  refine Eq.trans ?_ e.symm
  exact congrArg₂ (· * ·) (actBlk_apply m c t p j r ⟨t.val % 4 * 1024 + j.val, hlt⟩ hr rfl)
    (wgtBlk_apply m c t q j o ⟨t.val % 4 * 1024 + j.val, hlt⟩ ho rfl)

/-- `blockAcc` depends on the position only. -/
theorem blockAcc_congr (c : Dev nD) {n1 n2 : ℕ} (e : n1 = n2) (h1 : n1 < cfg0.N) (h2 : n2 < cfg0.N) :
    blockAcc m c n1 h1 = blockAcc m c n2 h2 := by
  subst e; rfl

/-- A first step starts the sum: its tile is terms 0 .. 1023, and the bias entry is added. -/
theorem step_first (c : Dev nD) (p : Fin 1024) (q : Fin 2048) (t : Fin cfg0.N) (h0 : t.val % 4 = 0)
    (r : Fin 8192) (o : Fin 4096) (hr : r.val = t.val / 8 * 1024 + p.val) (ho : o.val = t.val / 4 % 2 * 2048 + q.val) :
    blockAcc m c t.val t.isLt (ix2 p q)
      = (∑ i ∈ Finset.range ((t.val % 4 + 1) * 1024), term m c r o i) + biasArr m c (ix2 (0 : Fin 1) o) := by
  refine (congrFun (blockAcc_first m c t h0) (ix2 p q)).trans ?_
  refine (first_apply (actBlk m c t) (wgtBlk m c t) (biasBlk m c t) p q).trans ?_
  rw [tile_eq m c t p q r o hr ho, biasBlk_apply m c t q o ho, h0, sum_tile (term m c r o) 0]
  simp only [Nat.zero_mul, Finset.range_zero, Finset.sum_empty, zero_add]

/-- A later step appends its tile to the sum the step before left (same rows r and o: the block has not moved). -/
theorem step_later (c : Dev nD) (p : Fin 1024) (q : Fin 2048) (t : Fin cfg0.N) (n' : ℕ) (hn' : t.val = n' + 1)
    (h0 : ¬ t.val % 4 = 0) (r : Fin 8192) (o : Fin 4096)
    (hr : r.val = t.val / 8 * 1024 + p.val) (ho : o.val = t.val / 4 % 2 * 2048 + q.val)
    (prev : ∀ h : n' < cfg0.N, blockAcc m c n' h (ix2 p q)
      = (∑ i ∈ Finset.range ((n' % 4 + 1) * 1024), term m c r o i) + biasArr m c (ix2 (0 : Fin 1) o)) :
    blockAcc m c t.val t.isLt (ix2 p q)
      = (∑ i ∈ Finset.range ((t.val % 4 + 1) * 1024), term m c r o i) + biasArr m c (ix2 (0 : Fin 1) o) := by
  have hlt' : n' < cfg0.N := lt_of_le_of_lt (by omega) t.isLt
  have hprev : blockAcc m c (t.val - 1) (Nat.lt_of_le_of_lt (Nat.sub_le _ _) t.isLt) (ix2 p q)
      = (∑ i ∈ Finset.range ((n' % 4 + 1) * 1024), term m c r o i) + biasArr m c (ix2 (0 : Fin 1) o) :=
    (congrFun (blockAcc_congr m c (by omega) _ hlt') (ix2 p q)).trans (prev hlt')
  have hk : t.val % 4 = n' % 4 + 1 := by omega
  refine (congrFun (blockAcc_later m c t h0) (ix2 p q)).trans ?_
  refine (later_apply (actBlk m c t) (wgtBlk m c t) _ p q).trans ?_
  rw [tile_eq m c t p q r o hr ho, hprev, hk, sum_tile (term m c r o) (n' % 4 + 1), add_right_comm]

/-- THE INVARIANT: after point n the output buffer at (p, q) holds the first (n % 4 + 1)·1024 terms of row r against
    row o, plus the bias entry o. -/
theorem acc_eq (c : Dev nD) (p : Fin 1024) (q : Fin 2048) : ∀ (n : ℕ) (hn : n < cfg0.N) (r : Fin 8192) (o : Fin 4096),
    r.val = n / 8 * 1024 + p.val → o.val = n / 4 % 2 * 2048 + q.val →
    blockAcc m c n hn (ix2 p q)
      = (∑ i ∈ Finset.range ((n % 4 + 1) * 1024), term m c r o i) + biasArr m c (ix2 (0 : Fin 1) o) := by
  intro n
  induction n with
  | zero =>
    intro hn r o hr ho
    exact step_first m c p q ⟨0, hn⟩ rfl r o hr ho
  | succ n ih =>
    intro hn r o hr ho
    by_cases h0 : (n + 1) % 4 = 0
    · exact step_first m c p q ⟨n + 1, hn⟩ h0 r o hr ho
    · exact step_later m c p q ⟨n + 1, hn⟩ n rfl h0 r o hr ho
        (fun h => ih h r o (by omega) (by omega))

/-! ## The result array -/

/-- THE RESULT as one function of the three staged arrays: entry (r, o) is the full 4096-term sum of row r of X
    against row o of Wt, plus the bias entry o. -/
def matOut (X : FVec Ideal S8192x4096 .f32) (Wt : FVec Ideal S4096x4096 .bf16) (Bs : FVec Ideal S1x4096 .f32) :
    S8192x4096.Idx → EReal := fun i =>
  (∑ k : Fin 4096, X (ix2 (⟨(i 0).val, idx2_lt0 i⟩ : Fin 8192) k) * Wt (ix2 (⟨(i 1).val, idx2_lt1 i⟩ : Fin 4096) k))
    + Bs (ix2 (0 : Fin 1) (⟨(i 1).val, idx2_lt1 i⟩ : Fin 4096))

theorem matOut_apply (X : FVec Ideal S8192x4096 .f32) (Wt : FVec Ideal S4096x4096 .bf16) (Bs : FVec Ideal S1x4096 .f32)
    (i : S8192x4096.Idx) (r : Fin 8192) (o : Fin 4096) (hr : (i 0).val = r.val) (ho : (i 1).val = o.val) :
    matOut X Wt Bs i = (∑ k : Fin 4096, X (ix2 r k) * Wt (ix2 o k)) + Bs (ix2 (0 : Fin 1) o) := by
  obtain rfl : (⟨(i 0).val, idx2_lt0 i⟩ : Fin 8192) = r := Fin.ext hr
  obtain rfl : (⟨(i 1).val, idx2_lt1 i⟩ : Fin 4096) = o := Fin.ext ho
  rfl

/-- All 4096 terms: the sum over the range is the sum over the contracted axis. -/
theorem sum_all (c : Dev nD) (r : Fin 8192) (o : Fin 4096) :
    ∑ i ∈ Finset.range 4096, term m c r o i = ∑ k : Fin 4096, actArr m c (ix2 r k) * wgtArr m c (ix2 o k) := by
  rw [Finset.sum_range]
  exact Finset.sum_congr rfl fun k _ => dif_pos k.isLt

/-- WHAT A LAST STEP WRITES BACK is its block of the result array. -/
theorem flushed_eq (c : Dev nD) (t : Fin cfg0.N) (h3 : t.val % 4 = 3) :
    (dats m 0 c).flushed 3 t
      = ((cfg0.win 3).blk t).view.read (Elt Ideal) (matOut (actArr m c) (wgtArr m c) (biasArr m c)) := by
  show (cfg0.win 3).cut (grid0.coords t) ((dats m 0 c).after 3 t) = _
  rw [after_o]
  funext j
  obtain ⟨p, q, rfl⟩ : ∃ (p : Fin 1024) (q : Fin 2048), j = ix2 p q := ⟨j 0, j 1, eq_ix2 j⟩
  have hN : t.val < 64 := lt_of_lt_of_eq t.isLt (show cfg0.N = 64 from N_0)
  obtain ⟨-, -, -, -, -, -, e6, e7⟩ := idx_facts t
  have hr : t.val / 8 * 1024 + p.val < 8192 := by have := p.isLt; omega
  have ho : t.val / 4 % 2 * 2048 + q.val < 4096 := by have := q.isLt; omega
  show blockAcc m c t.val t.isLt (ix2 p q)
    = matOut (actArr m c) (wgtArr m c) (biasArr m c) (((cfg0.win 3).blk t).view.emb (ix2 p q))
  rw [acc_eq m c p q t.val t.isLt ⟨_, hr⟩ ⟨_, ho⟩ rfl rfl,
    matOut_apply _ _ _ _ ⟨_, hr⟩ ⟨_, ho⟩
      (show win0_3.index t (0 : Fin 2) * 1024 + 1 * p.val = t.val / 8 * 1024 + p.val by omega)
      (show win0_3.index t (1 : Fin 2) * 2048 + 1 * q.val = t.val / 4 % 2 * 2048 + q.val by omega),
    h3, show (3 + 1) * 1024 = 4096 from rfl, sum_all]

/-- An index of the array is in point t's block iff each coordinate is in the block's range on its axis. -/
theorem mem_blk (t : Fin cfg0.N) (i : S8192x4096.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_call0_v38).slice (win0_3.rect t)).set ↔ _
  rw [View.set_slice_whole, Rect.mem_set_unit]
  exact Iff.rfl

/-- Every index of the result array lies in the block some last step writes back: entry (r, o) in block
    (r / 1024, o / 2048), written back at the point ((r / 1024)·2 + o / 2048)·4 + 3. -/
theorem covered (i : S8192x4096.Idx) :
    ∃ t : Fin cfg0.N, (cfg0.win 3).flush t = true ∧ i ∈ ((cfg0.win 3).blk t).view.set := by
  have h0 : (i 0).val < 8192 := idx2_lt0 i
  have h1 : (i 1).val < 4096 := idx2_lt1 i
  have hlt : ((i 0).val / 1024 * 2 + (i 1).val / 2048) * 4 + 3 < 64 := by omega
  refine ⟨⟨((i 0).val / 1024 * 2 + (i 1).val / 2048) * 4 + 3, lt_of_lt_of_eq hlt N_0.symm⟩, ?_, ?_⟩
  · exact (flush0_3 _).mpr (by show (((i 0).val / 1024 * 2 + (i 1).val / 2048) * 4 + 3) % 4 = 3; omega)
  · rw [mem_blk]
    obtain ⟨-, -, -, -, -, -, e6, e7⟩ := idx_facts ⟨((i 0).val / 1024 * 2 + (i 1).val / 2048) * 4 + 3, lt_of_lt_of_eq hlt N_0.symm⟩
    dsimp only at e6 e7
    intro a
    match a with
    | ⟨0, _⟩ =>
      show win0_3.index _ (0 : Fin 2) * 1024 ≤ (i 0).val ∧ (i 0).val < win0_3.index _ (0 : Fin 2) * 1024 + 1024
      rw [e6]; omega
    | ⟨1, _⟩ =>
      show win0_3.index _ (1 : Fin 2) * 2048 ≤ (i 1).val ∧ (i 1).val < win0_3.index _ (1 : Fin 2) * 2048 + 2048
      rw [e7]; omega

/-- THE OUTPUT ARRAY after the run is the result array. -/
theorem final (c : Dev nD) :
    (dats m 0 c).arrAt 3 cfg0.N = matOut (actArr m c) (wgtArr m c) (biasArr m c) :=
  (dats m 0 c).arrAt_eq_of_cover 3 _ (fun t ht => flushed_eq m c t ((flush0_3 t).mp ht)) covered

end Cert.KernelIdeal.Tiled

end
-- ==== Proof.DeqKernel.lean ====
/-
  The dequantized weight matrix W[o, i], 4096 x 4096, as both programs' host lines compute it from the packed 4-bit
  weights `qw` [4096, 512], the scales `sc` [32, 4096] and the zero points `qz` [32, 4096]:
  the nibble (qw[o, i / 8] >> 4 (i % 8)) & 15 as a float, minus the zero point qz[g, o] as a float, times the scale
  sc[g, o], where g is the column's group: jnp's floor division of i by 128, wrapped as jnp indexing wraps a negative
  index.  Nothing here looks inside it: the two programs apply the same lines, so the function is carried whole.
-/
import proofs.«400176_j33337536152070_3_alg».proof.Proof.Gen.KernelIdeal

noncomputable section

namespace Cert.KernelIdeal.Deq

open Cert.KernelIdeal Cert.KernelIdeal.Gen Idealize.ShloMosaic

variable {F : FTy → Type} [FloatOps F]

/-- The eight shift amounts 0, 4, …, 28. -/
def shifts : (⟨S8, .i32⟩ : BufTy).Contents (Elt F) :=
  addi (broadcastInDim S8 ![] bcast_S_S8 (constantI S_ 32 0#32))
    (muli (broadcastInDim S8 ![] bcast_S_S8 (constantI S_ 32 4#32)) (iotaInDim S8 32 0))

/-- The unpacked nibbles as floats, laid out [4096, 4096]: column i of row o is nibble i % 8 of word i / 8. -/
def nibbles (qw : (⟨S4096x512, .i32⟩ : BufTy).Contents (Elt F)) : (⟨S4096x4096, .f32⟩ : BufTy).Contents (Elt F) :=
  sitofp .f32 (shapeCast S4096x4096
    (andi
      (Host.shrsi
        (broadcastInDim S4096x512x8 ![0, 1, 2] bcast_S4096x512x1_S4096x512x8_0_1_2
          (broadcastInDim S4096x512x1 ![0, 1] bcast_S4096x512_S4096x512x1_0_1 qw))
        (broadcastInDim S4096x512x8 ![0, 1, 2] bcast_S1x1x8_S4096x512x8_0_1_2
          (broadcastInDim S1x1x8 ![2] bcast_S8_S1x1x8_2 (shifts (F := F)))))
      (broadcastInDim S4096x512x8 ![] bcast_S_S4096x512x8 (constantI S_ 32 15#32)))
    shapeCasts_S4096x512x8_S4096x4096)

/-- jnp's floor division of the column index by the group size 128: the truncated quotient, less one where the signs
    differ and the remainder is not zero. -/
def floorDiv : (⟨S4096, .i32⟩ : BufTy).Contents (Elt F) :=
  select
    (andi
      (cmpi .ne (signi (iotaInDim S4096 32 0)) (broadcastInDim S4096 ![] bcast_S_S4096 (signi (id (constantI S_ 32 128#32)))))
      (cmpi .ne (Host.remsi (iotaInDim S4096 32 0) (broadcastInDim S4096 ![] bcast_S_S4096 (id (constantI S_ 32 128#32))))
        (broadcastInDim S4096 ![] bcast_S_S4096 (constantI S_ 32 0#32))))
    (subi (Host.divsi (iotaInDim S4096 32 0) (broadcastInDim S4096 ![] bcast_S_S4096 (id (constantI S_ 32 128#32))))
      (broadcastInDim S4096 ![] bcast_S_S4096 (constantI S_ 32 1#32)))
    (Host.divsi (iotaInDim S4096 32 0) (broadcastInDim S4096 ![] bcast_S_S4096 (id (constantI S_ 32 128#32))))

/-- The column's group index as jnp indexing reads it: a negative index wraps by the 32 groups. -/
def groupOf : (⟨S4096, .i32⟩ : BufTy).Contents (Elt F) :=
  select (cmpi .slt (floorDiv (F := F)) (broadcastInDim S4096 ![] bcast_S_S4096 (constantI S_ 32 0#32)))
    (addi (floorDiv (F := F)) (broadcastInDim S4096 ![] bcast_S_S4096 (constantI S_ 32 32#32)))
    (floorDiv (F := F))

/-- A per-group table [32, 4096] spread over the columns and transposed: entry (o, i) is the table's (group of i, o). -/
def spread (tbl : (⟨S32x4096, .f32⟩ : BufTy).Contents (Elt F)) : (⟨S4096x4096, .f32⟩ : BufTy).Contents (Elt F) :=
  transpose S4096x4096 [1, 0]
    (Host.gather gather_S32x4096_S4096x1_S4096x4096_1_0_n_n_0_1_14096 tbl
      (broadcastInDim S4096x1 ![0] bcast_S4096_S4096x1_0 (groupOf (F := F))))
    transposes_S4096x4096_S4096x4096_1_0

/-- The dequantized weights: (nibble - zero point) * scale. -/
def deq (qw : (⟨S4096x512, .i32⟩ : BufTy).Contents (Elt F)) (sc : (⟨S32x4096, .f32⟩ : BufTy).Contents (Elt F))
    (qz : (⟨S32x4096, .i32⟩ : BufTy).Contents (Elt F)) : (⟨S4096x4096, .f32⟩ : BufTy).Contents (Elt F) :=
  mulf (subf (nibbles qw) (spread (sitofp .f32 qz))) (spread sc)

end Cert.KernelIdeal.Deq

end
-- ==== Proof.HostSide.lean ====
/-
  What the region finds in the three arrays it stages, as functions of the program's arguments: the activations
  reshaped to [8192, 4096], the bias reshaped to [1, 4096], and the dequantized weights (`Deq.deq`, carried whole)
  cast to bf16 — at the exact-real instance the cast is the identity.
-/
import proofs.«400176_j33337536152070_3_alg».proof.Proof.Gen.KernelIdeal.Frame
import proofs.«400176_j33337536152070_3_alg».proof.Proof.DeqKernel
import Idealize.ShloMosaic.Lib.StableHlo.Run
import Idealize.ShloMosaic.Lib.Pipeline.Value
import Idealize.ShloMosaic.Lib.ValueIdx

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The activations as staged: the [4, 2048, 4096] argument reshaped to [8192, 4096]. -/
theorem staged_x (c : Dev nD) :
    (V m c main_call0_v0 : S8192x4096.Idx → Elt F .f32)
      = shapeCast S8192x4096 (m ((c.tc : Thread nD τ).loc main_arg0)) shapeCasts_S4x2048x4096_S8192x4096 := by
  show StableHlo.after hostOps0 (fun b => m (c, b)) (Proc.devRef .tc main_call0_v0) = _
  after_results
  rfl

/-- The bias as staged: the [4096] argument reshaped to [1, 4096]. -/
theorem staged_b (c : Dev nD) :
    (V m c main_call0_v37 : S1x4096.Idx → Elt F .f32)
      = shapeCast S1x4096 (m ((c.tc : Thread nD τ).loc main_arg4)) shapeCasts_S4096_S1x4096 := by
  show StableHlo.after hostOps0 (fun b => m (c, b)) (Proc.devRef .tc main_call0_v37) = _
  after_results
  rfl

set_option maxHeartbeats 2000000 in
/-- The weights as staged: the dequantized matrix, cast to bf16. -/
theorem staged_w (c : Dev nD) :
    (V m c main_call0_v36 : S4096x4096.Idx → Elt F .bf16)
      = truncf .bf16 (Deq.deq (m ((c.tc : Thread nD τ).loc main_arg1)) (m ((c.tc : Thread nD τ).loc main_arg2))
          (m ((c.tc : Thread nD τ).loc main_arg3))) bitsLt_bf16_f32 := by
  show StableHlo.after hostOps0 (fun b => m (c, b)) (Proc.devRef .tc main_call0_v36) = _
  after_results_simp
  rfl

end Cert.KernelIdeal.HostSide

end
-- ==== Proof.KernelOut.lean ====
/-
  The kernel program's result as a function of its arguments, at the exact-real instance.  After the region the one
  host line reshapes the [8192, 4096] output array to [4, 2048, 4096]; entry (n, s, o) of the result is therefore
  entry (n·2048 + s, o) of the output array: the 4096-term sum of row n·2048 + s of the staged activations against row
  o of the staged weights, plus the staged bias entry.  Read back through the host lines before the region, the staged
  activations at (n·2048 + s, k) are x(n, s, k), the staged weights are the dequantized matrix (the cast to bf16 being
  the identity on exact reals) and the staged bias at (0, o) is bias(o).
-/
import proofs.«400176_j33337536152070_3_alg».proof.Proof.BlockValue
import proofs.«400176_j33337536152070_3_alg».proof.Proof.HostSide
import Idealize.ShloMosaic.Lib.StableHlo.Run

set_option maxRecDepth 16384

noncomputable section

namespace Cert.KernelIdeal.Tiled

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat Cfg Window)

variable (m : (ℓ : Loc nD τ sig) → Buf (Elt Ideal) ℓ) (ρ : Dev nD → PrngReg)

/-- The program's result on core c: the output array reshaped to [4, 2048, 4096]. -/
def kernelOut (c : Dev nD) : S4x2048x4096.Idx → EReal :=
  shapeCast S4x2048x4096 (matOut (actArr m c) (wgtArr m c) (biasArr m c)) shapeCasts_S8192x4096_S4x2048x4096

/-- The host line after the region leaves the result buffer at the reshaped output array. -/
theorem tail_out (c : Dev nD) :
    Pipeline.afterTail₀ cfgs (dats m) 0 (V0 m) [hostOps1] c main_v0 = kernelOut m c := by
  unfold Pipeline.afterTail₀
  show StableHlo.after hostOps1 _ (Proc.devRef .tc main_v0) = _
  after_results
  have hw : Pipeline.withArrays spec0 c (V0 m c) (fun w => (dats m 0 c).arrAt w cfg0.N) (Proc.devRef .tc main_call0_v38)
      = matOut (actArr m c) (wgtArr m c) (biasArr m c) :=
    (Pipeline.withArrays_arr spec0 launch0.win.arr_inj c (V0 m c) (fun w => (dats m 0 c).arrAt w cfg0.N) 3).trans (final m c)
  funext i
  show shapeCast S4x2048x4096 (Pipeline.withArrays spec0 c (V0 m c) (fun w => (dats m 0 c).arrAt w cfg0.N)
    (Proc.devRef .tc main_call0_v38)) shapeCasts_S8192x4096_S4x2048x4096 i = _
  rw [hw]
  rfl

/-- THE KERNEL PROGRAM'S RUN with its result named: every weakly fair execution terminates without a fault, the result
    buffer at `kernelOut`, the five arguments as launched. -/
theorem kernel_run : θ_run defs (onTc (τ := τ) (main (F := Ideal))) ⟨m, fun _ => 0, ρ⟩ (fun r => ∀ c : Dev nD,
      r.2.mem ((c.tc : Thread nD τ).loc main_v0) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (tail_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-! ## The result at an index, over the program's arguments -/

/-- The arguments at their literal types. -/
abbrev argX (c : Dev nD) : FVec Ideal S4x2048x4096 .f32 := m ((c.tc : Thread nD τ).loc main_arg0)
abbrev argBias (c : Dev nD) : FVec Ideal S4096 .f32 := m ((c.tc : Thread nD τ).loc main_arg4)
/-- The dequantized weight matrix of the arguments. -/
abbrev argW (c : Dev nD) : FVec Ideal S4096x4096 .f32 :=
  Deq.deq (F := Ideal) (m ((c.tc : Thread nD τ).loc main_arg1)) (m ((c.tc : Thread nD τ).loc main_arg2)) (m ((c.tc : Thread nD τ).loc main_arg3))

/-- Staged activations at (n·2048 + s, k) are x(n, s, k): a reshape keeps the row-major position. -/
theorem act_apply (c : Dev nD) (n : Fin 4) (s : Fin 2048) (k : Fin 4096) (r : Fin 8192) (hr : r.val = n.val * 2048 + s.val) :
    actArr m c (ix2 r k) = argX m c (ix3 n s k) := by
  refine (congrFun (HostSide.staged_x m c) (ix2 r k)).trans ?_
  refine shapeCast_apply _ _ (ix2 r k) (ix3 n s k) ?_
  rw [Shape.rowMajor_val_two, Shape.rowMajor_val_three]
  show (n.val * 2048 + s.val) * 4096 + k.val = r.val * 4096 + k.val
  rw [hr]

/-- Staged weights are the dequantized matrix. -/
theorem wgt_apply (c : Dev nD) (o k : Fin 4096) : wgtArr m c (ix2 o k) = argW m c (ix2 o k) :=
  congrFun (HostSide.staged_w m c) (ix2 o k)

/-- Staged bias at (0, o) is bias(o). -/
theorem bias_apply (c : Dev nD) (o : Fin 4096) : biasArr m c (ix2 (0 : Fin 1) o) = argBias m c (ix1 o) := by
  refine (congrFun (HostSide.staged_b m c) (ix2 (0 : Fin 1) o)).trans ?_
  refine shapeCast_apply _ _ (ix2 (0 : Fin 1) o) (ix1 o) ?_
  rw [Shape.rowMajor_val_one, Shape.rowMajor_val_two]
  show o.val = 0 * 4096 + o.val
  omega

/-- THE RESULT at (n, s, o): the 4096-term sum of x(n, s, ·) against row o of the dequantized weights, plus bias(o). -/
theorem kernelOut_apply (c : Dev nD) (n : Fin 4) (s : Fin 2048) (o : Fin 4096) :
    kernelOut m c (ix3 n s o) = (∑ k : Fin 4096, argX m c (ix3 n s k) * argW m c (ix2 o k)) + argBias m c (ix1 o) := by
  have hr : n.val * 2048 + s.val < 8192 := by have := n.isLt; have := s.isLt; omega
  unfold kernelOut
  refine (shapeCast_apply _ _ (ix3 n s o) (ix2 (⟨n.val * 2048 + s.val, hr⟩ : Fin 8192) o) ?_).trans ?_
  · rw [Shape.rowMajor_val_two, Shape.rowMajor_val_three]
    rfl
  rw [matOut_apply _ _ _ _ ⟨n.val * 2048 + s.val, hr⟩ o rfl rfl, bias_apply m c o]
  refine congrArg (· + argBias m c (ix1 o)) (Finset.sum_congr rfl fun k _ => ?_)
  exact congrArg₂ (· * ·) (act_apply m c n s k ⟨n.val * 2048 + s.val, hr⟩ rfl) (wgt_apply m c o k)

end Cert.KernelIdeal.Tiled

end
-- ==== Proof.DeqRef.lean ====
/-
  The dequantized weight matrix W[o, i], 4096 x 4096, as both programs' host lines compute it from the packed 4-bit
  weights `qw` [4096, 512], the scales `sc` [32, 4096] and the zero points `qz` [32, 4096]:
  the nibble (qw[o, i / 8] >> 4 (i % 8)) & 15 as a float, minus the zero point qz[g, o] as a float, times the scale
  sc[g, o], where g is the column's group: jnp's floor division of i by 128, wrapped as jnp indexing wraps a negative
  index.  Nothing here looks inside it: the two programs apply the same lines, so the function is carried whole.
-/
import proofs.«400176_j33337536152070_3_alg».proof.Proof.Gen.ReferenceIdeal

noncomputable section

namespace Cert.ReferenceIdeal.Deq

open Cert.ReferenceIdeal Cert.ReferenceIdeal.Gen Idealize.ShloMosaic

variable {F : FTy → Type} [FloatOps F]

/-- The eight shift amounts 0, 4, …, 28. -/
def shifts : (⟨S8, .i32⟩ : BufTy).Contents (Elt F) :=
  addi (broadcastInDim S8 ![] bcast_S_S8 (constantI S_ 32 0#32))
    (muli (broadcastInDim S8 ![] bcast_S_S8 (constantI S_ 32 4#32)) (iotaInDim S8 32 0))

/-- The unpacked nibbles as floats, laid out [4096, 4096]: column i of row o is nibble i % 8 of word i / 8. -/
def nibbles (qw : (⟨S4096x512, .i32⟩ : BufTy).Contents (Elt F)) : (⟨S4096x4096, .f32⟩ : BufTy).Contents (Elt F) :=
  sitofp .f32 (shapeCast S4096x4096
    (andi
      (Host.shrsi
        (broadcastInDim S4096x512x8 ![0, 1, 2] bcast_S4096x512x1_S4096x512x8_0_1_2
          (broadcastInDim S4096x512x1 ![0, 1] bcast_S4096x512_S4096x512x1_0_1 qw))
        (broadcastInDim S4096x512x8 ![0, 1, 2] bcast_S1x1x8_S4096x512x8_0_1_2
          (broadcastInDim S1x1x8 ![2] bcast_S8_S1x1x8_2 (shifts (F := F)))))
      (broadcastInDim S4096x512x8 ![] bcast_S_S4096x512x8 (constantI S_ 32 15#32)))
    shapeCasts_S4096x512x8_S4096x4096)

/-- jnp's floor division of the column index by the group size 128: the truncated quotient, less one where the signs
    differ and the remainder is not zero. -/
def floorDiv : (⟨S4096, .i32⟩ : BufTy).Contents (Elt F) :=
  select
    (andi
      (cmpi .ne (signi (iotaInDim S4096 32 0)) (broadcastInDim S4096 ![] bcast_S_S4096 (signi (id (constantI S_ 32 128#32)))))
      (cmpi .ne (Host.remsi (iotaInDim S4096 32 0) (broadcastInDim S4096 ![] bcast_S_S4096 (id (constantI S_ 32 128#32))))
        (broadcastInDim S4096 ![] bcast_S_S4096 (constantI S_ 32 0#32))))
    (subi (Host.divsi (iotaInDim S4096 32 0) (broadcastInDim S4096 ![] bcast_S_S4096 (id (constantI S_ 32 128#32))))
      (broadcastInDim S4096 ![] bcast_S_S4096 (constantI S_ 32 1#32)))
    (Host.divsi (iotaInDim S4096 32 0) (broadcastInDim S4096 ![] bcast_S_S4096 (id (constantI S_ 32 128#32))))

/-- The column's group index as jnp indexing reads it: a negative index wraps by the 32 groups. -/
def groupOf : (⟨S4096, .i32⟩ : BufTy).Contents (Elt F) :=
  select (cmpi .slt (floorDiv (F := F)) (broadcastInDim S4096 ![] bcast_S_S4096 (constantI S_ 32 0#32)))
    (addi (floorDiv (F := F)) (broadcastInDim S4096 ![] bcast_S_S4096 (constantI S_ 32 32#32)))
    (floorDiv (F := F))

/-- A per-group table [32, 4096] spread over the columns and transposed: entry (o, i) is the table's (group of i, o). -/
def spread (tbl : (⟨S32x4096, .f32⟩ : BufTy).Contents (Elt F)) : (⟨S4096x4096, .f32⟩ : BufTy).Contents (Elt F) :=
  transpose S4096x4096 [1, 0]
    (Host.gather gather_S32x4096_S4096x1_S4096x4096_1_0_n_n_0_1_14096 tbl
      (broadcastInDim S4096x1 ![0] bcast_S4096_S4096x1_0 (groupOf (F := F))))
    transposes_S4096x4096_S4096x4096_1_0

/-- The dequantized weights: (nibble - zero point) * scale. -/
def deq (qw : (⟨S4096x512, .i32⟩ : BufTy).Contents (Elt F)) (sc : (⟨S32x4096, .f32⟩ : BufTy).Contents (Elt F))
    (qz : (⟨S32x4096, .i32⟩ : BufTy).Contents (Elt F)) : (⟨S4096x4096, .f32⟩ : BufTy).Contents (Elt F) :=
  mulf (subf (nibbles qw) (spread (sitofp .f32 qz))) (spread sc)

end Cert.ReferenceIdeal.Deq

end
-- ==== Proof.RefSide.lean ====
/-
  The reference program's side: what its one straight line of host operations leaves in the result buffer.

  The program dequantizes a 4-bit weight matrix W [4096, 4096] (lines %0..%34: unpack eight nibbles per packed word,
  subtract the group's zero point, multiply by the group's scale, the group of column i being the floored quotient
  i / 128 wrapped as a negative index wraps), contracts x [4, 2048, 4096] with it along x's last axis and W's last
  axis, and adds the bias along the last axis: out[n, s, o] = Σ_i x[n, s, i] · W[o, i] + bias[o].

  `run`: every weakly fair execution terminates with the result buffer at `outOf x (Deq.deq qw sc qz) bias` of the
  launch contents and the five arguments untouched. The floored division is a function of the module that itself calls
  the elementwise choice; both are unfolded where they are called, so the line has sixty-three operations.
  `outOf_apply`: at the exact-real values, `outOf` at (n, s, o) is that 4096-term sum plus the bias entry.
-/
import proofs.«400176_j33337536152070_3_alg».proof.Proof.DeqRef
import Idealize.ShloMosaic.Lib.StableHlo.Run
import Idealize.ShloMosaic.Lib.ValueIdx
import Idealize.ShloMosaic.PureOps.Ideal.Laws

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- x · Wᵀ + bias over an arbitrary weight array. -/
def outOf (x : (⟨S4x2048x4096, .f32⟩ : BufTy).Contents (Elt F)) (W : (⟨S4096x4096, .f32⟩ : BufTy).Contents (Elt F))
    (b : (⟨S4096, .f32⟩ : BufTy).Contents (Elt F)) : (⟨S4x2048x4096, .f32⟩ : BufTy).Contents (Elt F) :=
  addf (Host.dotGeneral dot_S4x2048x4096_S4096x4096_S4x2048x4096_2_1_01_0_n_n none x W)
    (broadcastInDim S4x2048x4096 ![0, 1, 2] bcast_S1x1x4096_S4x2048x4096_0_1_2 (broadcastInDim S1x1x4096 ![2] bcast_S4096_S1x1x4096_2 b))

/-- The sixty-three host operations in program order. The first nineteen unpack the nibbles and lay down the column
    index 0..4095 and the group size 128; the next seventeen are the floored division of the column index by 128,
    written over the division's own record of values (its last line, the choice between the truncated quotient and
    the quotient less one, lands in the value the caller reads back); then twice over, once for the zero points and
    once for the scales: wrap a negative group index by 32, gather the group's row, transpose; last the
    subtraction, the product, the contraction with x and the bias. -/
abbrev hostLine : List (HloOp τ sig (Elt F)) :=
  [ nullary main_v0 (iotaInDim S8 32 0),
    nullary main_c (constantI S_ 32 4#32),
    unary main_c main_v1 (broadcastInDim S8 ![] bcast_S_S8),
    binary main_v1 main_v0 main_v2 muli,
    nullary main_c_0 (constantI S_ 32 0#32),
    unary main_c_0 main_v3 (broadcastInDim S8 ![] bcast_S_S8),
    binary main_v3 main_v2 main_v4 addi,
    unary main_arg1 main_v5 (broadcastInDim S4096x512x1 ![0, 1] bcast_S4096x512_S4096x512x1_0_1),
    unary main_v4 main_v6 (broadcastInDim S1x1x8 ![2] bcast_S8_S1x1x8_2),
    unary main_v5 main_v7 (broadcastInDim S4096x512x8 ![0, 1, 2] bcast_S4096x512x1_S4096x512x8_0_1_2),
    unary main_v6 main_v8 (broadcastInDim S4096x512x8 ![0, 1, 2] bcast_S1x1x8_S4096x512x8_0_1_2),
    binary main_v7 main_v8 main_v9 Host.shrsi,
    nullary main_c_1 (constantI S_ 32 15#32),
    unary main_c_1 main_v10 (broadcastInDim S4096x512x8 ![] bcast_S_S4096x512x8),
    binary main_v9 main_v10 main_v11 andi,
    reshape main_v11 main_v12 rfl shapeCasts_S4096x512x8_S4096x4096,
    unary main_v12 main_v13 (sitofp .f32),
    nullary main_v14 (iotaInDim S4096 32 0),
    nullary main_c_2 (constantI S_ 32 128#32),
    TRef.unary (.of main_c_2) main_call0.v0 id,
    TRef.unary main_call0.v0 main_call0.v1 (broadcastInDim S4096 ![] bcast_S_S4096),
    TRef.binary (.of main_v14) main_call0.v1 main_call0.v2 Host.divsi,
    TRef.unary (.of main_v14) main_call0.v3 signi,
    TRef.unary main_call0.v0 main_call0.v4 signi,
    TRef.unary main_call0.v4 main_call0.v5 (broadcastInDim S4096 ![] bcast_S_S4096),
    TRef.binary main_call0.v3 main_call0.v5 main_call0.v6 (cmpi .ne),
    TRef.unary main_call0.v0 main_call0.v7 (broadcastInDim S4096 ![] bcast_S_S4096),
    TRef.binary (.of main_v14) main_call0.v7 main_call0.v8 Host.remsi,
    TRef.nullary main_call0.c (constantI S_ 32 0#32),
    TRef.unary main_call0.c main_call0.v9 (broadcastInDim S4096 ![] bcast_S_S4096),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S4096 ![] bcast_S_S4096),
    TRef.binary main_call0.v2 main_call0.v12 main_call0.v13 subi,
    TRef.ternary main_call0.v11 main_call0.v13 main_call0.v2 main_call0.call0.v0 select,
    unary main_arg3 main_v16 (sitofp .f32),
    nullary main_c_3 (constantI S_ 32 0#32),
    unary main_c_3 main_v17 (broadcastInDim S4096 ![] bcast_S_S4096),
    binary main_v15 main_v17 main_v18 (cmpi .slt),
    nullary main_c_4 (constantI S_ 32 32#32),
    unary main_c_4 main_v19 (broadcastInDim S4096 ![] bcast_S_S4096),
    binary main_v15 main_v19 main_v20 addi,
    ternary main_v18 main_v20 main_v15 main_v21 select,
    unary main_v21 main_v22 (broadcastInDim S4096x1 ![0] bcast_S4096_S4096x1_0),
    binary main_v16 main_v22 main_v23 (fun x i => Host.gather gather_S32x4096_S4096x1_S4096x4096_1_0_n_n_0_1_14096 x i),
    unary main_v23 main_v24 (transpose S4096x4096 [1, 0] · transposes_S4096x4096_S4096x4096_1_0),
    nullary main_c_5 (constantI S_ 32 0#32),
    unary main_c_5 main_v25 (broadcastInDim S4096 ![] bcast_S_S4096),
    binary main_v15 main_v25 main_v26 (cmpi .slt),
    nullary main_c_6 (constantI S_ 32 32#32),
    unary main_c_6 main_v27 (broadcastInDim S4096 ![] bcast_S_S4096),
    binary main_v15 main_v27 main_v28 addi,
    ternary main_v26 main_v28 main_v15 main_v29 select,
    unary main_v29 main_v30 (broadcastInDim S4096x1 ![0] bcast_S4096_S4096x1_0),
    binary main_arg2 main_v30 main_v31 (fun x i => Host.gather gather_S32x4096_S4096x1_S4096x4096_1_0_n_n_0_1_14096 x i),
    unary main_v31 main_v32 (transpose S4096x4096 [1, 0] · transposes_S4096x4096_S4096x4096_1_0),
    binary main_v13 main_v24 main_v33 subf,
    binary main_v33 main_v32 main_v34 mulf,
    binary main_arg0 main_v34 main_v35 (fun l r => Host.dotGeneral dot_S4x2048x4096_S4096x4096_S4x2048x4096_2_1_01_0_n_n none l r),
    unary main_arg4 main_v36 (broadcastInDim S1x1x4096 ![2] bcast_S4096_S1x1x4096_2),
    unary main_v36 main_v37 (broadcastInDim S4x2048x4096 ![0, 1, 2] bcast_S1x1x4096_S4x2048x4096_0_1_2),
    binary main_v35 main_v37 main_v38 addf ]

-- sixty-three steps re-associated one inside the next, each spelled with its shapes' full names
set_option maxRecDepth 4096 in
set_option maxHeartbeats 2000000 in
/-- The program is that straight line: with the division and the choice unfolded at their call sites, both sides are
    one chain of single steps once the sequencing is re-associated. -/
theorem main_is_hostLine (c : Dev nD) : main (F := F) c = seq hostLine := by
  simp only [main, fn_floor_divide.body, fn_where.body, seq, bind_assoc, pure_bind]
  rfl

/-- The signature scopes no buffer: every one is a tensor value, live for the whole program. -/
theorem no_scoped_buffer : (Finset.univ.filter fun b : Ref sig .tc => b.isScoped) = ∅ := by decide
/-- It has no semaphore, so none is scoped. -/
theorem no_scoped_semaphore : (Finset.univ.filter fun sm : SemLoc sig => sm.isScoped .tc) = ∅ := by decide

/-- Every operation touches TensorCore buffers only. -/
theorem hostLine_on_tensorcore : (hostLine : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., unary_bufs_sub .., unary_bufs_sub .., unary_bufs_sub .., unary_bufs_sub .., binary_bufs_sub ..,
    nullary_bufs_sub .., unary_bufs_sub .., binary_bufs_sub .., reshape_bufs_sub .., unary_bufs_sub .., nullary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., binary_bufs_sub .., binary_bufs_sub ..,
    unary_bufs_sub .., unary_bufs_sub .., binary_bufs_sub ..⟩

/-- The result buffer after the line, from any contents: each operation read at its own buffer is its function of its
    operands' buffers, and read anywhere else is what was there; composing them from the last line back gives the
    contraction and bias over the weight array of lines %0..%34, and that array is `Deq.deq` of the three quantized
    arguments, term for term. -/
theorem result_after (V : Valuation τ sig (Elt F)) :
    after hostLine V (main_v38 : DevRef τ sig)
      = outOf (V (main_arg0 : DevRef τ sig))
          (Deq.deq (V (main_arg1 : DevRef τ sig)) (V (main_arg2 : DevRef τ sig)) (V (main_arg3 : DevRef τ sig)))
          (V (main_arg4 : DevRef τ sig)) := by
  after_results_simp
  rfl

/-- No line writes an argument's buffer. -/
theorem arg0_after (V : Valuation τ sig (Elt F)) : after hostLine V (main_arg0 : DevRef τ sig) = V (main_arg0 : DevRef τ sig) := by
  after_results_simp
theorem arg1_after (V : Valuation τ sig (Elt F)) : after hostLine V (main_arg1 : DevRef τ sig) = V (main_arg1 : DevRef τ sig) := by
  after_results_simp
theorem arg2_after (V : Valuation τ sig (Elt F)) : after hostLine V (main_arg2 : DevRef τ sig) = V (main_arg2 : DevRef τ sig) := by
  after_results_simp
theorem arg3_after (V : Valuation τ sig (Elt F)) : after hostLine V (main_arg3 : DevRef τ sig) = V (main_arg3 : DevRef τ sig) := by
  after_results_simp
theorem arg4_after (V : Valuation τ sig (Elt F)) : after hostLine V (main_arg4 : DevRef τ sig) = V (main_arg4 : DevRef τ sig) := by
  after_results_simp

/-- On every device, for any float values, from any memory with zero counters: every weakly fair execution of the
    program terminates with the result buffer at x · Wᵀ + bias, W the dequantized weights of the launch contents, and
    the five arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
          = outOf (m ((c.tc : Thread nD τ).loc main_arg0))
              (Deq.deq (m ((c.tc : Thread nD τ).loc main_arg1)) (m ((c.tc : Thread nD τ).loc main_arg2)) (m ((c.tc : Thread nD τ).loc main_arg3)))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c main_v38).trans (result_after _), (h c main_arg0).trans (arg0_after _), (h c main_arg1).trans (arg1_after _),
      (h c main_arg2).trans (arg2_after _), (h c main_arg3).trans (arg3_after _), (h c main_arg4).trans (arg4_after _)⟩)
    (run_seq no_scoped_buffer no_scoped_semaphore defs main (fun _ => hostLine) main_is_hostLine (fun _ => hostLine_on_tensorcore) m ρ)

/-! ## The result at one index

The contraction's dimension numbers send the result index (n, s, o) and a contraction position q to x's index
(n, s, q) and W's index (o, q): x's axes 0 and 1 are free and come first in the result, its axis 2 is contracted; W's
axis 0 is free and comes third in the result, its axis 1 is contracted. One statement per operand axis, at the literal
axis, for any contraction position. -/

/-- x's axis 0 is free, first among the result's axes. -/
theorem lhs_dot_S4x2048x4096_S4096x4096_S4x2048x4096_2_1_01_0_n_n_0 (j : S4x2048x4096.Idx)
    (q : dot_S4x2048x4096_S4096x4096_S4x2048x4096_2_1_01_0_n_n.contr.Idx) :
    (dot_S4x2048x4096_S4096x4096_S4x2048x4096_2_1_01_0_n_n.lhsIdx j q 0).val = (j 0).val := by
  unfold DotDims.lhsIdx
  rw [dif_neg (show ¬(0 : Fin S4x2048x4096.rank) ∈ dot_S4x2048x4096_S4096x4096_S4x2048x4096_2_1_01_0_n_n.lhsBatch by decide),
    dif_pos (show (0 : Fin S4x2048x4096.rank) ∈ dot_S4x2048x4096_S4096x4096_S4x2048x4096_2_1_01_0_n_n.lhsNonContracting by decide)]
  rfl

/-- x's axis 1 is free, second among the result's axes. -/
theorem lhs_dot_S4x2048x4096_S4096x4096_S4x2048x4096_2_1_01_0_n_n_1 (j : S4x2048x4096.Idx)
    (q : dot_S4x2048x4096_S4096x4096_S4x2048x4096_2_1_01_0_n_n.contr.Idx) :
    (dot_S4x2048x4096_S4096x4096_S4x2048x4096_2_1_01_0_n_n.lhsIdx j q 1).val = (j 1).val := by
  unfold DotDims.lhsIdx
  rw [dif_neg (show ¬(1 : Fin S4x2048x4096.rank) ∈ dot_S4x2048x4096_S4096x4096_S4x2048x4096_2_1_01_0_n_n.lhsBatch by decide),
    dif_pos (show (1 : Fin S4x2048x4096.rank) ∈ dot_S4x2048x4096_S4096x4096_S4x2048x4096_2_1_01_0_n_n.lhsNonContracting by decide)]
  rfl

/-- x's axis 2 is the contracted one: it reads the contraction position. -/
theorem lhs_dot_S4x2048x4096_S4096x4096_S4x2048x4096_2_1_01_0_n_n_2 (j : S4x2048x4096.Idx)
    (q : dot_S4x2048x4096_S4096x4096_S4x2048x4096_2_1_01_0_n_n.contr.Idx) :
    (dot_S4x2048x4096_S4096x4096_S4x2048x4096_2_1_01_0_n_n.lhsIdx j q 2).val = (q ⟨0, by decide⟩).val :=
  dot_S4x2048x4096_S4096x4096_S4x2048x4096_2_1_01_0_n_n.lhsIdx_val_of_single rfl j q

/-- W's axis 0 is free, third among the result's axes. -/
theorem rhs_dot_S4x2048x4096_S4096x4096_S4x2048x4096_2_1_01_0_n_n_0 (j : S4x2048x4096.Idx)
    (q : dot_S4x2048x4096_S4096x4096_S4x2048x4096_2_1_01_0_n_n.contr.Idx) :
    (dot_S4x2048x4096_S4096x4096_S4x2048x4096_2_1_01_0_n_n.rhsIdx j q 0).val = (j 2).val := by
  unfold DotDims.rhsIdx
  rw [dif_neg (show ¬(0 : Fin S4096x4096.rank) ∈ dot_S4x2048x4096_S4096x4096_S4x2048x4096_2_1_01_0_n_n.rhsBatch by decide),
    dif_pos (show (0 : Fin S4096x4096.rank) ∈ dot_S4x2048x4096_S4096x4096_S4x2048x4096_2_1_01_0_n_n.rhsNonContracting by decide)]
  rfl

/-- W's axis 1 is the contracted one: it reads the contraction position. -/
theorem rhs_dot_S4x2048x4096_S4096x4096_S4x2048x4096_2_1_01_0_n_n_1 (j : S4x2048x4096.Idx)
    (q : dot_S4x2048x4096_S4096x4096_S4x2048x4096_2_1_01_0_n_n.contr.Idx) :
    (dot_S4x2048x4096_S4096x4096_S4x2048x4096_2_1_01_0_n_n.rhsIdx j q 1).val = (q ⟨0, by decide⟩).val :=
  dot_S4x2048x4096_S4096x4096_S4x2048x4096_2_1_01_0_n_n.rhsIdx_val_of_single rfl j q

/-- The bias spread over the leading axes reads, at (n, s, o), the bias entry o: the inner broadcast puts the 4096
    entries on the last of three axes, the outer repeats the two unit axes. -/
theorem bias_apply {α : Type} (b : S4096.Idx → α) (n : Fin 4) (s : Fin 2048) (o : Fin 4096) :
    broadcastInDim S4x2048x4096 ![0, 1, 2] bcast_S1x1x4096_S4x2048x4096_0_1_2
        (broadcastInDim S1x1x4096 ![2] bcast_S4096_S1x1x4096_2 b) (ValueIdx.ix3 n s o) = b (ValueIdx.ix1 o) := by
  unfold broadcastInDim
  refine congrArg b (funext fun a => Fin.ext ?_)
  match a with
  | ⟨0, _⟩ => rfl

/-- At the exact-real instance the result at (n, s, o) is the full 4096-term sum plus the bias entry. -/
theorem outOf_apply (x : FVec Ideal S4x2048x4096 .f32) (W : FVec Ideal S4096x4096 .f32) (b : FVec Ideal S4096 .f32)
    (n : Fin 4) (s : Fin 2048) (o : Fin 4096) :
    outOf (F := Ideal) x W b (ValueIdx.ix3 n s o) = (∑ i : Fin 4096, x (ValueIdx.ix3 n s i) * W (ValueIdx.ix2 o i)) + b (ValueIdx.ix1 o) := by
  unfold outOf
  rw [ValueIdx.addf_apply, bias_apply]
  congr 1
  simp only [Host.dotGeneral]
  rw [Ideal.dotGeneral_apply,
    ← Equiv.sum_comp (ValueIdx.contrEquiv1 dot_S4x2048x4096_S4096x4096_S4x2048x4096_2_1_01_0_n_n 4096 rfl rfl).symm]
  refine Finset.sum_congr rfl fun i _ => ?_
  have hi := ValueIdx.contrEquiv1_symm_val dot_S4x2048x4096_S4096x4096_S4x2048x4096_2_1_01_0_n_n 4096 rfl rfl i
  have hx : dot_S4x2048x4096_S4096x4096_S4x2048x4096_2_1_01_0_n_n.lhsIdx (ValueIdx.ix3 n s o)
      ((ValueIdx.contrEquiv1 dot_S4x2048x4096_S4096x4096_S4x2048x4096_2_1_01_0_n_n 4096 rfl rfl).symm i)
      = ValueIdx.ix3 n s i := funext fun a => Fin.ext (by
    match a with
    | ⟨0, _⟩ => exact lhs_dot_S4x2048x4096_S4096x4096_S4x2048x4096_2_1_01_0_n_n_0 _ _
    | ⟨1, _⟩ => exact lhs_dot_S4x2048x4096_S4096x4096_S4x2048x4096_2_1_01_0_n_n_1 _ _
    | ⟨2, _⟩ => exact (lhs_dot_S4x2048x4096_S4096x4096_S4x2048x4096_2_1_01_0_n_n_2 _ _).trans hi)
  have hW : dot_S4x2048x4096_S4096x4096_S4x2048x4096_2_1_01_0_n_n.rhsIdx (ValueIdx.ix3 n s o)
      ((ValueIdx.contrEquiv1 dot_S4x2048x4096_S4096x4096_S4x2048x4096_2_1_01_0_n_n 4096 rfl rfl).symm i)
      = ValueIdx.ix2 o i := funext fun a => Fin.ext (by
    match a with
    | ⟨0, _⟩ => exact rhs_dot_S4x2048x4096_S4096x4096_S4x2048x4096_2_1_01_0_n_n_0 _ _
    | ⟨1, _⟩ => exact (rhs_dot_S4x2048x4096_S4096x4096_S4x2048x4096_2_1_01_0_n_n_1 _ _).trans hi)
  rw [hx, hW]

end Cert.ReferenceIdeal.Hand

end
-- ==== Proof.Same.lean ====
/-
  The two programs compute one function.  At the exact-real instance the reference's result at (n, s, o) is the
  4096-term sum of x(n, s, ·) against row o of the dequantized weights plus bias(o), and so is the kernel program's:
  its four partial sums per output block are the same terms grouped by tile, and the bias it adds first is the bias
  the reference adds last (addition of extended reals is commutative and associative; nothing here needs the inputs
  finite).  The dequantized weights are the same host lines in both programs, so one function, by unfolding.
-/
import proofs.«400176_j33337536152070_3_alg».proof.Proof.KernelOut
import proofs.«400176_j33337536152070_3_alg».proof.Proof.RefSide
import Idealize.ShloMosaic.PureOps.Ideal

noncomputable section

namespace Cert.Proof.Same

open Idealize.ShloMosaic Idealize.ShloMosaic.TcCoe Idealize.ShloMosaic.ValueIdx Idealize.SL.Sem

/-- The dequantized weight matrix spelled over either program's vocabulary is one function. -/
theorem deq_same (qw : (⟨Cert.KernelIdeal.S4096x512, .i32⟩ : BufTy).Contents (Elt Ideal))
    (sc : (⟨Cert.KernelIdeal.S32x4096, .f32⟩ : BufTy).Contents (Elt Ideal))
    (qz : (⟨Cert.KernelIdeal.S32x4096, .i32⟩ : BufTy).Contents (Elt Ideal)) :
    Cert.KernelIdeal.Deq.deq (F := Ideal) qw sc qz = Cert.ReferenceIdeal.Deq.deq (F := Ideal) qw sc qz := rfl

/-- The reference's result, computed from the kernel program's arguments, is the kernel program's result. -/
theorem result_same (m : (ℓ : Loc Cert.KernelIdeal.nD Cert.KernelIdeal.τ Cert.KernelIdeal.sig) → Buf (Elt Ideal) ℓ) (c : Dev Cert.KernelIdeal.nD) :
    Cert.ReferenceIdeal.Hand.outOf (F := Ideal) (m ((c.tc : Thread Cert.KernelIdeal.nD Cert.KernelIdeal.τ).loc Cert.KernelIdeal.main_arg0))
        (Cert.ReferenceIdeal.Deq.deq (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (m ((c.tc : Thread Cert.KernelIdeal.nD Cert.KernelIdeal.τ).loc Cert.KernelIdeal.main_arg4))
      = Cert.KernelIdeal.Tiled.kernelOut m c := by
  funext i
  obtain ⟨n, s, o, rfl⟩ : ∃ (n : Fin 4) (s : Fin 2048) (o : Fin 4096), i = ix3 n s o := ⟨i 0, i 1, i 2, eq_ix3 i⟩
  rw [Cert.KernelIdeal.Tiled.kernelOut_apply, ← deq_same]
  exact Cert.ReferenceIdeal.Hand.outOf_apply _ _ _ n s o

end Cert.Proof.Same

end
-- ==== Proof.lean ====
/-
  The certificate.  The kernel is a tiled matrix product: an 8 x 2 x 4 grid whose point (i, j, k) adds the product of
  the activation block (i, k) with the transposed weight block (j, k) into the output block (i, j), the bias row added
  at k = 0; the weights are dequantized from packed 4-bit values by host lines before the region, and the result is
  reshaped after it.  The reference dequantizes the same way and contracts once over all 4096 columns, then adds the
  bias.

  The three frames: the kernel program's run at either float instance (`Tiled.frame`: the body at a first step and
  at a later step, the output block carried in its buffer across the four steps), and the reference's run with its
  result dropped.  No operation was rewritten by the idealization, so there is nothing to preserve.  Over the exact
  reals the two results are equal entry by entry: four partial sums plus the bias against one full sum plus the bias
  (`Same.result_same`).
-/
import proofs.«400176_j33337536152070_3_alg».proof.Defs
import proofs.«400176_j33337536152070_3_alg».proof.Proof.Gen.Kernel
import proofs.«400176_j33337536152070_3_alg».proof.Proof.Gen.KernelIdeal
import proofs.«400176_j33337536152070_3_alg».proof.Proof.Gen.ReferenceIdeal
import proofs.«400176_j33337536152070_3_alg».proof.Proof.Gen.Pre_finite_inputs
import proofs.«400176_j33337536152070_3_alg».proof.Proof.TiledRun
import proofs.«400176_j33337536152070_3_alg».proof.Proof.TiledRunBits
import proofs.«400176_j33337536152070_3_alg».proof.Proof.KernelOut
import proofs.«400176_j33337536152070_3_alg».proof.Proof.RefSide
import proofs.«400176_j33337536152070_3_alg».proof.Proof.Same
import Idealize.ShloMosaic.Adequacy
import Idealize.ShloMosaic.Init

noncomputable section

namespace Cert.Proof

open Idealize.ShloMosaic Idealize.SL.Sem

/-- The word-level program runs and keeps its arguments. -/
theorem frame_bits : Cert.frame_Kernel := fun m ρ _ => Cert.Kernel.Tiled.frame m ρ

/-- So does the program read over the exact reals. -/
theorem frame_exact : Cert.frame_KernelIdeal := fun m ρ _ => Cert.KernelIdeal.Tiled.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- From memories agreeing on the five arguments both programs end, with equal results: the kernel program's result
    array reshaped, and the reference's contraction plus bias, are the same sum at every index. -/
theorem algebraic : Cert.algebraic_KernelIdeal_ReferenceIdeal := by
  intro m ρ m' ρ' _ hagree
  refine ⟨fun c => Cert.KernelIdeal.Tiled.kernelOut m c, Cert.KernelIdeal.Tiled.kernel_run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2]
  exact Same.result_same m c

theorem claim : Cert.Claim :=
  ⟨Cert.Kernel.Gen.facts, Cert.KernelIdeal.Gen.facts, Cert.ReferenceIdeal.Gen.facts, Cert.Pre_finite_inputs.Gen.facts,
    frame_bits, frame_exact, frame_reference, preserves, algebraic⟩

end Cert.Proof

end
